-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x1600000 : Shape := ⟨2, ![2, 1600000]⟩
abbrev S1x64 : Shape := ⟨2, ![1, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x1 .f32) (main_arg1 : IVec S2x1600000 32) (main_arg2 : FVec F S1x64 .f32) (main_arg3 : FVec F S64 .f32) (main_arg4 : FVec F S64x128 .f32) (main_arg5 : FVec F S128 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S50000x1 : Shape := ⟨2, ![50000, 1]⟩
abbrev S2x1600000 : Shape := ⟨2, ![2, 1600000]⟩
abbrev S1x64 : Shape := ⟨2, ![1, 64]⟩
abbrev S64 : Shape := ⟨1, ![64]⟩
abbrev S64x128 : Shape := ⟨2, ![64, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x128 : Shape := ⟨2, ![1, 128]⟩
abbrev S50000x64 : Shape := ⟨2, ![50000, 64]⟩
abbrev S5000x1 : Shape := ⟨2, ![5000, 1]⟩
abbrev S5000x64 : Shape := ⟨2, ![5000, 64]⟩
abbrev S1650000x64 : Shape := ⟨2, ![1650000, 64]⟩
abbrev S10000x64 : Shape := ⟨2, ![10000, 64]⟩
abbrev S10000x1 : Shape := ⟨2, ![10000, 1]⟩
abbrev S50000x128 : Shape := ⟨2, ![50000, 128]⟩
abbrev S5000x128 : Shape := ⟨2, ![5000, 128]⟩
abbrev S1650000x128 : Shape := ⟨2, ![1650000, 128]⟩
abbrev S10000x128 : Shape := ⟨2, ![10000, 128]⟩
abbrev S5000 : Shape := ⟨1, ![5000]⟩

abbrev nBuf : Space → Nat
  | .hbm => 81
  | .vmem => 32
  | .smem => 0
  | _ => 0

abbrev bufTy : (tb : Table) → Fin (tcTables nBuf tb) → BufTy
  | .hbm, ⟨0, _⟩ => ⟨S50000x1, .f32⟩
  | .hbm, ⟨1, _⟩ => ⟨S2x1600000, .i32⟩
  | .hbm, ⟨2, _⟩ => ⟨S1x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S1650000x1, .f32⟩
  | .hbm, ⟨47, _⟩ => ⟨S1x64, .f32⟩
  | .hbm, ⟨48, _⟩ => ⟨S1x128, .f32⟩
  | .hbm, ⟨49, _⟩ => ⟨S50000x64, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x64, .f32⟩
  | .hbm, ⟨59, _⟩ => ⟨S1650000x64, .f32⟩
  | .hbm, ⟨60, _⟩ => ⟨S_, .f32⟩
  | .hbm, ⟨61, _⟩ => ⟨S50000x64, .f32⟩
  | .hbm, ⟨62, _⟩ => ⟨S1650000x1, .i32⟩
  | .hbm, ⟨63, _⟩ => ⟨S50000x64, .f32⟩
  | .hbm, ⟨64, _⟩ => ⟨S50000x64, .f32⟩
  | .hbm, ⟨65, _⟩ => ⟨S50000x128, .f32⟩
  | .hbm, ⟨66, _⟩ => ⟨S_, .i32⟩
  | .hbm, ⟨67, _⟩ => ⟨S1650000, .i32⟩
  | .hbm, ⟨68, _⟩ => ⟨S1650000, .i1⟩
  | .hbm, ⟨69, _⟩ => ⟨S_, .i32⟩
  | .hbm, ⟨70, _⟩ => ⟨S1650000, .i32⟩
  | .hbm, ⟨71, _⟩ => ⟨S1650000, .i32⟩
  | .hbm, ⟨72, _⟩ => ⟨S1650000, .i32⟩
  | .hbm, ⟨73, _⟩ => ⟨S1650000x1, .i32⟩
  | .hbm, ⟨74, _⟩ => ⟨S1650000x128, .f32⟩
  | .hbm, ⟨75, _⟩ => ⟨S1650000x128, .f32⟩
  | .hbm, ⟨76, _⟩ => ⟨S_, .f32⟩
  | .hbm, ⟨77, _⟩ => ⟨S50000x128, .f32⟩
  | .hbm, ⟨78, _⟩ => ⟨S1650000x1, .i32⟩
  | .hbm, ⟨79, _⟩ => ⟨S50000x128, .f32⟩
  | .hbm, ⟨80, _⟩ => ⟨S50000x128, .f32⟩
  | .local _ .vmem, ⟨0, _⟩ => ⟨S5000x1, .f32⟩
  | .local _ .vmem, ⟨1, _⟩ => ⟨S5000x1, .f32⟩
  | .local _ .vmem, ⟨2, _⟩ => ⟨S1x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x128, .f32⟩
  | .local _ .vmem, ⟨19, _⟩ => ⟨S5000x128, .f32⟩
  | .local _ .vmem, ⟨20, _⟩ => ⟨S5000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![165], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![165], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S1650000_S1650000x1 : S1650000.ShapeCasts S1650000x1
  shapeCasts_S64_S1x64 : S64.ShapeCasts S1x64
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  inb_S1x64_S1x64_0_0 : ∀ a, (![0, 0] : Fin 2 → Nat) a + S1x64.size a ≤ S1x64.size a
  h_S1x64 : 0 < S1x64.numel
  broadcasts_S5000x1_S5000x64 : S5000x1.Broadcasts S5000x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S50000x64 : S_.BroadcastsInDim S50000x64 (![] : Fin 0 → Fin S50000x64.rank)
  shapeCasts_S5000x64_S5000x64 : S5000x64.ShapeCasts S5000x64
  shapeCasts_S1x64_S1x64 : S1x64.ShapeCasts S1x64
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x128_S5000x128_1_0_0_1_n_n_wf : DotDims.WF S5000x64 S64x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .f32 = 32 ∨ (Rect.block (s := S50000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1650000x64.size a
  hwx1_0 : ∀ i : grid1.Coords, EltTy.bits .f32 = 32 ∨ (Rect.block (s := S1650000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1650000x1.size a
  hwx1_1 : ∀ i : grid1.Coords, EltTy.bits .f32 = 32 ∨ (Rect.block (s := S1650000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1650000x64.size a
  hwx1_2 : ∀ i : grid1.Coords, EltTy.bits .f32 = 32 ∨ (Rect.block (s := S1650000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1650000x128.size a
  hwx4_0 : ∀ i : grid4.Coords, EltTy.bits .f32 = 32 ∨ (Rect.block (s := S1650000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1650000x1.size a
  hwx4_1 : ∀ i : grid4.Coords, EltTy.bits .f32 = 32 ∨ (Rect.block (s := S1650000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1650000x128.size a
  hwx4_2 : ∀ i : grid4.Coords, EltTy.bits .f32 = 32 ∨ (Rect.block (s := S1650000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v53) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x1 : Shape := ⟨2, ![50000, 1]⟩
abbrev S2x1600000 : Shape := ⟨2, ![2, 1600000]⟩
abbrev S1x64 : Shape := ⟨2, ![1, 64]⟩
abbrev S64 : Shape := ⟨1, ![64]⟩
abbrev S64x128 : Shape := ⟨2, ![64, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S50000x128 : Shape := ⟨2, ![50000, 128]⟩
abbrev S1650000x128 : Shape := ⟨2, ![1650000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x1, .f32⟩
  | .hbm, ⟨1, _⟩ => ⟨S2x1600000, .i32⟩
  | .hbm, ⟨2, _⟩ => ⟨S1x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x64, .f32⟩
  | .hbm, ⟨47, _⟩ => ⟨S1650000x1, .f32⟩
  | .hbm, ⟨48, _⟩ => ⟨S_, .i32⟩
  | .hbm, ⟨49, _⟩ => ⟨S1650000, .i32⟩
  | .hbm, ⟨50, _⟩ => ⟨S1650000, .i1⟩
  | .hbm, ⟨51, _⟩ => ⟨S_, .i32⟩
  | .hbm, ⟨52, _⟩ => ⟨S1650000, .i32⟩
  | .hbm, ⟨53, _⟩ => ⟨S1650000, .i32⟩
  | .hbm, ⟨54, _⟩ => ⟨S1650000, .i32⟩
  | .hbm, ⟨55, _⟩ => ⟨S1650000x1, .i32⟩
  | .hbm, ⟨56, _⟩ => ⟨S1650000x64, .f32⟩
  | .hbm, ⟨57, _⟩ => ⟨S1650000x64, .f32⟩
  | .hbm, ⟨58, _⟩ => ⟨S1650000x64, .f32⟩
  | .hbm, ⟨59, _⟩ => ⟨S_, .f32⟩
  | .hbm, ⟨60, _⟩ => ⟨S50000x64, .f32⟩
  | .hbm, ⟨61, _⟩ => ⟨S1650000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x128, .f32⟩
  | .hbm, ⟨70, _⟩ => ⟨S1650000x1, .f32⟩
  | .hbm, ⟨71, _⟩ => ⟨S_, .i32⟩
  | .hbm, ⟨72, _⟩ => ⟨S1650000, .i32⟩
  | .hbm, ⟨73, _⟩ => ⟨S1650000, .i1⟩
  | .hbm, ⟨74, _⟩ => ⟨S_, .i32⟩
  | .hbm, ⟨75, _⟩ => ⟨S1650000, .i32⟩
  | .hbm, ⟨76, _⟩ => ⟨S1650000, .i32⟩
  | .hbm, ⟨77, _⟩ => ⟨S1650000, .i32⟩
  | .hbm, ⟨78, _⟩ => ⟨S1650000x1, .i32⟩
  | .hbm, ⟨79, _⟩ => ⟨S1650000x128, .f32⟩
  | .hbm, ⟨80, _⟩ => ⟨S1650000x128, .f32⟩
  | .hbm, ⟨81, _⟩ => ⟨S1650000x128, .f32⟩
  | .hbm, ⟨82, _⟩ => ⟨S_, .f32⟩
  | .hbm, ⟨83, _⟩ => ⟨S50000x128, .f32⟩
  | .hbm, ⟨84, _⟩ => ⟨S1650000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x128, .f32⟩
  | .hbm, ⟨103, _⟩ => ⟨S50000x128, .f32⟩
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x1_S1x64_S50000x64_1_0_0_1_n_n_wf : DotDims.WF S50000x1 S1x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x128_S50000x128_1_0_0_1_n_n_wf : DotDims.WF S50000x64 S64x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.GcnSpec.lean ====
/-
  The five row-wise maps a two-layer graph convolution is made of, each as ONE function of whole arrays read index by
  index on the extended reals:
    * the outer product of a column and a row, (p, q) ↦ x(p) · w(q) — a product with one contracted coordinate;
    * a matrix with each row scaled by that row's entry of a column, (p, q) ↦ a(p, q) · n(p);
    * a bias row added and the rectifier applied, (p, q) ↦ max (a(p, q) + b(q)) 0;
    * a matrix product, (p, q) ↦ Σ_k h(p, k) · w(k, q);
    * a bias row added and then the row-wise log-softmax, with z(q) = a(p, q) + b(q) and M = max_q z(q):
      (p, q) ↦ (z(q) − M) − log Σ_r exp (z(r) − M).
  The zero and −∞ that appear are kept as the f32 words both programs write.
-/
import Idealize.ShloMosaic.PureOps.Ideal.Laws
import Idealize.ShloMosaic.Lib.ValueIdx

noncomputable section

namespace Cert.GcnSpec

open Idealize.ShloMosaic Idealize.ShloMosaic.ValueIdx

abbrev Sh2 (a b : ℕ) : Shape := ⟨2, ![a, b]⟩

/-- The f32 word of zero, read on the extended reals. -/
abbrev zeroW : EReal := Ideal.ofBits .f32 0x00000000#32
/-- The f32 word of −∞, read on the extended reals. -/
abbrev negInfW : EReal := Ideal.ofBits .f32 0xFF800000#32

variable {N K C : ℕ}

/-- Column times row: entry (p, q) is x(p) · w(q). -/
def outer (x : FVec Ideal (Sh2 N 1) .f32) (w : FVec Ideal (Sh2 1 C) .f32) : FVec Ideal (Sh2 N C) .f32 :=
  fun i => x (ix2 (i 0) (0 : Fin 1)) * w (ix2 (0 : Fin 1) (i 1))

/-- Each row scaled by its entry of a column: entry (p, q) is a(p, q) · n(p). -/
def scaleRows (a : FVec Ideal (Sh2 N C) .f32) (n : FVec Ideal (Sh2 N 1) .f32) : FVec Ideal (Sh2 N C) .f32 :=
  fun i => a (ix2 (i 0) (i 1)) * n (ix2 (i 0) (0 : Fin 1))

/-- A bias row added, then the rectifier: entry (p, q) is max (a(p, q) + b(q)) 0. -/
def biasRelu (a : FVec Ideal (Sh2 N C) .f32) (b : FVec Ideal (Sh2 1 C) .f32) : FVec Ideal (Sh2 N C) .f32 :=
  fun i => max (a (ix2 (i 0) (i 1)) + b (ix2 (0 : Fin 1) (i 1))) zeroW

/-- The matrix product: entry (p, q) is Σ_k h(p, k) · w(k, q). -/
def matProd (h : FVec Ideal (Sh2 N K) .f32) (w : FVec Ideal (Sh2 K C) .f32) : FVec Ideal (Sh2 N C) .f32 :=
  fun i => ∑ k : Fin K, h (ix2 (i 0) k) * w (ix2 k (i 1))

/-- Row p of a + b, the bias row added. -/
def biased (a : FVec Ideal (Sh2 N C) .f32) (b : FVec Ideal (Sh2 1 C) .f32) (p : Fin N) : Fin C → EReal :=
  fun q => a (ix2 p q) + b (ix2 (0 : Fin 1) q)

/-- The maximum of a row, folded from −∞. -/
def rowMax (z : Fin C → EReal) : EReal := (Finset.univ : Finset (Fin C)).fold max negInfW z

/-- The log-softmax of a row at q: (z(q) − M) − log Σ_r exp (z(r) − M), M the row's maximum. -/
def logSoftmaxAt (z : Fin C → EReal) (q : Fin C) : EReal :=
  (z q - rowMax z) - Ideal.log (∑ r : Fin C, Ideal.exp (z r - rowMax z))

/-- A bias row added, then the row-wise log-softmax. -/
def biasLogSoftmax (a : FVec Ideal (Sh2 N C) .f32) (b : FVec Ideal (Sh2 1 C) .f32) : FVec Ideal (Sh2 N C) .f32 :=
  fun i => logSoftmaxAt (biased a b (i 0)) (i 1)

theorem outer_apply (x : FVec Ideal (Sh2 N 1) .f32) (w : FVec Ideal (Sh2 1 C) .f32) (p : Fin N) (q : Fin C) :
    outer x w (ix2 p q) = x (ix2 p (0 : Fin 1)) * w (ix2 (0 : Fin 1) q) := rfl

theorem scaleRows_apply (a : FVec Ideal (Sh2 N C) .f32) (n : FVec Ideal (Sh2 N 1) .f32) (p : Fin N) (q : Fin C) :
    scaleRows a n (ix2 p q) = a (ix2 p q) * n (ix2 p (0 : Fin 1)) := rfl

theorem biasRelu_apply (a : FVec Ideal (Sh2 N C) .f32) (b : FVec Ideal (Sh2 1 C) .f32) (p : Fin N) (q : Fin C) :
    biasRelu a b (ix2 p q) = max (a (ix2 p q) + b (ix2 (0 : Fin 1) q)) zeroW := rfl

theorem matProd_apply (h : FVec Ideal (Sh2 N K) .f32) (w : FVec Ideal (Sh2 K C) .f32) (p : Fin N) (q : Fin C) :
    matProd h w (ix2 p q) = ∑ k : Fin K, h (ix2 p k) * w (ix2 k q) := rfl

theorem biasLogSoftmax_apply (a : FVec Ideal (Sh2 N C) .f32) (b : FVec Ideal (Sh2 1 C) .f32) (p : Fin N) (q : Fin C) :
    biasLogSoftmax a b (ix2 p q) = logSoftmaxAt (biased a b p) q := rfl

end Cert.GcnSpec

end
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.Region0.lean ====
/-
  The first launch, read as a whole array. Its grid has ten points; point t takes rows 5000·t … 5000·t + 4999 of the
  column x and the whole row w, and writes the same rows of the output, entry (p, q) of its block being
  x(5000·t + p) · w(q). The ten row blocks tile the 50000 rows, so the output array ends as the outer product of x and w.
-/
import proofs.«123378_j41532333752332_1_alg».proof.Proof.Gen.KernelIdeal.Frame
import proofs.«123378_j41532333752332_1_alg».proof.Proof.GcnSpec
import proofs.«123378_j41532333752332_1_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Cert.GcnSpec Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets0 : (![0, 0] : Fin 2 → Nat) = fun _ => 0 := funext fun a => by fin_cases a <;> rfl

/-- The body's stored value at (p, q): the column block's entry p times the row's entry q. -/
theorem pay0_apply (x0 : Vec Ideal S5000x1 .f32) (x1 : Vec Ideal S1x64 .f32) (p : Fin 5000) (q : Fin 64) :
    k0_pay1 (F := Ideal) x0 x1 (ix2 p q) = x0 (ix2 p (0 : Fin 1)) * x1 (ix2 (0 : Fin 1) q) := by
  unfold k0_pay1
  rw [mulf_apply, Cert.LibKeepdims.broadcastTo_a1_ab_apply, broadcastTo_1b_ab_apply]

/-- The index maps over the grid: the column's and the output's row block is the point's number; every other block
    index is zero. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is its block of the outer product of the arrays the region finds. -/
theorem flushed0 (c : Dev nD) (t : Fin cfg0.N) :
    (dat0 V c).flushed 2 t
      = ((cfg0.win 2).blk t).view.read (Elt Ideal) (outer (N := 50000) (C := 64) (V c main_arg0) (V c main_arg2)) := by
  show (cfg0.win 2).cut (grid0.coords t) ((dat0 V c).after 2 t) = _
  rw [after0_2]
  unfold out0_2
  rw [View.canon_unit_zero zeroOffsets0]
  simp only [View.ld_unit_zero (S := S5000x1) zeroOffsets0, View.ld_unit_zero (S := S1x64) zeroOffsets0]
  obtain ⟨e0, e1, e2, e3, e4, e5⟩ := blockIdx0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q) = _
  have h0 : ((cfg0.win 0).blk t).view.emb (ix2 p (0 : Fin 1)) = ix2 ((((cfg0.win 2).blk t).view.emb (ix2 p q)) 0) (0 : Fin 1) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 1 + 1 * 0 = 0; omega
  have h1 : ((cfg0.win 1).blk t).view.emb (ix2 (0 : Fin 1) q) = ix2 (0 : Fin 1) ((((cfg0.win 2).blk t).view.emb (ix2 p q)) 1) := by
    funext a; apply Fin.ext
    match a with
    | ⟨0, _⟩ => show win0_1.index t (0 : Fin 2) * 1 + 1 * 0 = 0; omega
    | ⟨1, _⟩ => show win0_1.index t (1 : Fin 2) * 64 + 1 * q.val = win0_2.index t (1 : Fin 2) * 64 + 1 * q.val; omega
  refine (pay0_apply (iblk0 V c 0 t) (iblk0 V c 1 t) p q).trans ?_
  refine congrArg₂ (fun a b : EReal => a * b) ?_ ?_
  · exact congrArg (V c main_arg0) h0
  · exact congrArg (V c main_arg2) h1

/-- An index of the output array lies in point t's block iff each coordinate lies in the block's range. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v33).slice (win0_2.rect t)).set ↔ _
  rw [View.set_slice_whole, Rect.mem_set_unit]
  exact Iff.rfl

/-- Every row lies in some point's block: row r in point r / 5000's. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨e0, e1, e2, e3, e4, e5⟩ := blockIdx0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the launch is the outer product of the two arrays the region finds. -/
theorem arr0 (c : Dev nD) :
    (dat0 V c).arrAt 2 cfg0.N = outer (N := 50000) (C := 64) (V c main_arg0) (V c main_arg2) :=
  (dat0 V c).arrAt_eq_of_cover 2 _ (fun t _ => flushed0 V c t) cover0

end Cert.KernelIdeal.RegionValue

end
-- ==== Proof.Region1.lean ====
/-
  The second launch, read as a whole array. Its grid has 165 points; point t takes rows 10000·t … 10000·t + 9999 of the
  gathered features and of the norm column and writes the same rows of the output, entry (p, q) of its block being
  feat(p, q) · norm(p). The row blocks tile the 1650000 rows, so the output array is the features with each row scaled
  by its edge's norm.
-/
import proofs.«123378_j41532333752332_1_alg».proof.Proof.Gen.KernelIdeal.Frame
import proofs.«123378_j41532333752332_1_alg».proof.Proof.GcnSpec
import proofs.«123378_j41532333752332_1_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Cert.GcnSpec Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The body's stored value at (p, q): the feature block's entry (p, q) times the norm column's entry p. -/
theorem pay1_apply (x0 : Vec Ideal S10000x64 .f32) (x1 : Vec Ideal S10000x1 .f32) (p : Fin 10000) (q : Fin 64) :
    k1_pay1 (F := Ideal) x0 x1 (ix2 p q) = x0 (ix2 p q) * x1 (ix2 p (0 : Fin 1)) := by
  unfold k1_pay1
  rw [mulf_apply, Cert.LibKeepdims.broadcastTo_a1_ab_apply, shapeCast_self, shapeCast_self]

/-- The index maps over the grid: every window's row block is the point's number, its column block is zero. -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is its block of the row-scaled features of the arrays the region finds. -/
theorem flushed1 (c : Dev nD) (t : Fin cfg1.N) :
    (dat1 V c).flushed 2 t
      = ((cfg1.win 2).blk t).view.read (Elt Ideal) (scaleRows (N := 1650000) (C := 64) (V c main_v40) (V c main_v30)) := by
  show (cfg1.win 2).cut (grid1.coords t) ((dat1 V c).after 2 t) = _
  rw [after1_2]
  unfold out1_2
  rw [View.canon_unit_zero zeroOffsets1]
  simp only [View.ld_unit_zero (S := S10000x64) zeroOffsets1, View.ld_unit_zero (S := S10000x1) zeroOffsets1]
  obtain ⟨e0, e1, e2, e3, e4, e5⟩ := blockIdx1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (ix2 p q) = _
  have h0 : ((cfg1.win 0).blk t).view.emb (ix2 p q)
      = ix2 ((((cfg1.win 2).blk t).view.emb (ix2 p q)) 0) ((((cfg1.win 2).blk t).view.emb (ix2 p q)) 1) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega
  refine (pay1_apply (iblk1 V c 0 t) (iblk1 V c 1 t) p q).trans ?_
  refine congrArg₂ (fun a b : EReal => a * b) ?_ ?_
  · exact congrArg (V c main_v40) h0
  · exact congrArg (V c main_v30) h1

/-- An index of the output array lies in point t's block iff each coordinate lies in the block's range. -/
theorem mem_blk1 (t : Fin cfg1.N) (i : S1650000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v41).slice (win1_2.rect t)).set ↔ _
  rw [View.set_slice_whole, Rect.mem_set_unit]
  exact Iff.rfl

/-- Every row lies in some point's block: row r in point r / 10000's. -/
theorem cover1 (i : S1650000x64.Idx) : ∃ t : Fin cfg1.N, (cfg1.win 2).flush t = true ∧ i ∈ ((cfg1.win 2).blk t).view.set := by
  have hi0 : (i 0).val < 1650000 := (i 0).isLt
  have hi1 : (i 1).val < 64 := (i 1).isLt
  have hN : cfg1.N = 165 := N_1
  let t : Fin cfg1.N := ⟨(i 0).val / 10000, by rw [hN]; omega⟩
  obtain ⟨e0, e1, e2, e3, e4, e5⟩ := blockIdx1 t
  have e4' : win1_2.index t (0 : Fin 2) = (i 0).val / 10000 := e4
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the launch: the features the region finds, each row scaled by its entry of the norm column. -/
theorem arr1 (c : Dev nD) :
    (dat1 V c).arrAt 2 cfg1.N = scaleRows (N := 1650000) (C := 64) (V c main_v40) (V c main_v30) :=
  (dat1 V c).arrAt_eq_of_cover 2 _ (fun t _ => flushed1 V c t) cover1

end Cert.KernelIdeal.RegionValue

end
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.RefStages.lean ====
/-
  The reference program's dense stages, each named by the row-wise map it is. The reference spells the first layer's
  transform as a product with ONE contracted coordinate (a sum of one term: the outer product), the edge scaling as the
  norm broadcast over the feature axis times the gathered features (the product commutes), the bias as a vector made a
  one-row matrix and repeated down the rows, the rectifier as a maximum with a broadcast zero, and the log-softmax
  with the row maximum taken once more against −∞, which changes nothing. Gathers and scatter-adds are left as they
  are: both programs apply the same ones.
-/
import proofs.«123378_j41532333752332_1_alg».proof.Proof.RefRead
import proofs.«123378_j41532333752332_1_alg».proof.Proof.GcnSpec
import proofs.«123378_j41532333752332_1_alg».proof.Proof.LibKeepdims
import proofs.«123378_j41532333752332_1_alg».proof.Proof.LibDenseRows
import Idealize.ShloMosaic.Lib.ValueLayout
import Idealize.ShloMosaic.PureOps.Reduce
import Idealize.ShloMosaic.PureOps.Ideal.Laws

noncomputable section

namespace Cert.ReferenceIdeal.Stages

open Cert.ReferenceIdeal Cert.ReferenceIdeal.ReadP Cert.GcnSpec Idealize.ShloMosaic Idealize.ShloMosaic.ValueIdx

/-! ## Small facts the stages are read through -/

/-- The maximum with −∞ on the left is the other operand. -/
private theorem max_negInfW (y : EReal) : max negInfW y = y := by
  simp [Ideal.ofBits, Ideal.ieee]

/-- A row index with column `k` put back on axis 1 is (p, k). -/
private theorem lift_ix1 {m n : ℕ} (h : (Sh2 m n).Reduces [1] (⟨1, ![m]⟩ : Shape)) (p : Fin m) (k : Fin ((Sh2 m n).size 1)) :
    h.lift (ix1 p) k = ix2 p (⟨k.val, k.isLt⟩ : Fin n) := by
  funext c; apply Fin.ext; fin_cases c <;> rfl

/-- The host's maximum over axis 1 from −∞, read at row p, is that row's maximum. -/
private theorem hostRowMax_apply {m n : ℕ} (y : FVec Ideal (Sh2 m n) .f32) (h' : (Sh2 m n).ReducesTo [1] (⟨1, ![m]⟩ : Shape))
    (hu : 0 < (⟨0, ![]⟩ : Shape).numel) (p : Fin m) :
    Host.reduce FloatOps.maximumf y (constant (F := Ideal) (⟨0, ![]⟩ : Shape) .f32 0xFF800000#32) h' hu (ix1 p)
      = rowMax (fun q : Fin n => y (ix2 p q)) := by
  have hr : (Sh2 m n).Reduces [1] (⟨1, ![m]⟩ : Shape) := ⟨h'.1, Nat.one_pos, h'.2⟩
  rw [Host.reduce_eq_fold_single FloatOps.maximumf y _ h' hr hu]
  have hf : (y ∘ hr.lift (ix1 p)) = fun q : Fin n => y (ix2 p q) := funext fun k => congrArg y (lift_ix1 hr p k)
  exact congrArg (fun f => Finset.fold max negInfW f (Finset.univ : Finset (Fin n))) hf

/-! ## The stages -/

/-- Layer 1's transform x·W1, one contracted coordinate: the outer product of the column x and the row W1. -/
theorem v30_eq (x0 : FVec Ideal S50000x1 .f32) (x2 : FVec Ideal S1x64 .f32) :
    val_main_v30 (F := Ideal) x0 x2 = outer (N := 50000) (C := 64) x0 x2 := by
  funext i
  obtain ⟨p, q, rfl⟩ : ∃ (p : Fin 50000) (q : Fin 64), i = ix2 p q := ⟨i 0, i 1, eq_ix2 i⟩
  -- a sum over the one contracted coordinate is its one term
  rw [outer_apply, val_main_v30_apply, Fin.sum_univ_one]
  have el : lidx_main_v30 (ix2 p q) (0 : Fin 1) = ix2 p (0 : Fin 1) :=
    funext fun a => Fin.ext (by match a with | ⟨0, _⟩ => rfl | ⟨1, _⟩ => rfl)
  have er : ridx_main_v30 (ix2 p q) (0 : Fin 1) = ix2 (0 : Fin 1) q :=
    funext fun a => Fin.ext (by match a with | ⟨0, _⟩ => rfl | ⟨1, _⟩ => rfl)
  rw [el, er]

/-- Layer 1's messages: the gathered rows, each scaled by its edge's norm. -/
theorem v40_eq (x0 : FVec Ideal S50000x1 .f32) (x1 : IVec S2x1600000 32) (x2 : FVec Ideal S1x64 .f32)
    (h : S1650000.ShapeCasts S1650000x1) :
    val_main_v40 (F := Ideal) x0 x1 x2
      = scaleRows (N := 1650000) (C := 64) (val_main_v38 (F := Ideal) x0 x1 x2) (shapeCast S1650000x1 (val_main_v29 (F := Ideal) x1) h) := by
  funext i
  obtain ⟨p, q, rfl⟩ : ∃ (p : Fin 1650000) (q : Fin 64), i = ix2 p q := ⟨i 0, i 1, eq_ix2 i⟩
  rw [scaleRows_apply, Cert.LibKeepdims.shapeCast_a_a1_apply, val_main_v40_apply, val_main_v39_apply, val_main_v31_apply]
  -- the norm broadcast to a column and then over the feature axis reads the norm of edge p
  have e : idx_main_v31 (idx_main_v39 (ix2 p q)) = ix1 p :=
    funext fun a => Fin.ext (by match a with | ⟨0, _⟩ => rfl)
  rw [e]
  -- norm · features = features · norm
  exact mul_comm _ _

/-- Layer 1's output: the aggregate plus the bias row, rectified. -/
theorem v47_eq (x0 : FVec Ideal S50000x1 .f32) (x1 : IVec S2x1600000 32) (x2 : FVec Ideal S1x64 .f32) (x3 : FVec Ideal S64 .f32)
    (h : S64.ShapeCasts S1x64) :
    val_main_v47 (F := Ideal) x0 x1 x2 x3
      = biasRelu (N := 50000) (C := 64) (val_main_v43 (F := Ideal) x0 x1 x2) (shapeCast S1x64 x3 h) := by
  funext i
  obtain ⟨p, q, rfl⟩ : ∃ (p : Fin 50000) (q : Fin 64), i = ix2 p q := ⟨i 0, i 1, eq_ix2 i⟩
  rw [biasRelu_apply, shapeCast_a_1a_apply, val_main_v47_apply, val_main_v46_apply, val_main_v45_apply, val_main_v44_apply,
    val_main_call1_v0_apply, val_main_call1_cst_apply]
  -- the bias made a one-row matrix and repeated down the rows reads the bias at column q
  have e : idx_main_v44 (idx_main_v45 (ix2 p q)) = ix1 q :=
    funext fun a => Fin.ext (by match a with | ⟨0, _⟩ => rfl)
  rw [e]
  rfl

/-- Layer 2's transform h·W2. -/
theorem v48_eq (x0 : FVec Ideal S50000x1 .f32) (x1 : IVec S2x1600000 32) (x2 : FVec Ideal S1x64 .f32) (x3 : FVec Ideal S64 .f32) (x4 : FVec Ideal S64x128 .f32) :
    val_main_v48 (F := Ideal) x0 x1 x2 x3 x4
      = matProd (N := 50000) (K := 64) (C := 128) (val_main_v47 (F := Ideal) x0 x1 x2 x3) x4 := by
  funext i
  obtain ⟨p, q, rfl⟩ : ∃ (p : Fin 50000) (q : Fin 128), i = ix2 p q := ⟨i 0, i 1, eq_ix2 i⟩
  rw [matProd_apply, val_main_v48_apply]
  refine Finset.sum_congr rfl fun k _ => ?_
  have el : lidx_main_v48 (ix2 p q) k = ix2 p k :=
    funext fun a => Fin.ext (by match a with | ⟨0, _⟩ => rfl | ⟨1, _⟩ => rfl)
  have er : ridx_main_v48 (ix2 p q) k = ix2 k q :=
    funext fun a => Fin.ext (by match a with | ⟨0, _⟩ => rfl | ⟨1, _⟩ => rfl)
  rw [el, er]

/-- Layer 2's messages. -/
theorem v58_eq (x0 : FVec Ideal S50000x1 .f32) (x1 : IVec S2x1600000 32) (x2 : FVec Ideal S1x64 .f32) (x3 : FVec Ideal S64 .f32) (x4 : FVec Ideal S64x128 .f32)
    (h : S1650000.ShapeCasts S1650000x1) :
    val_main_v58 (F := Ideal) x0 x1 x2 x3 x4
      = scaleRows (N := 1650000) (C := 128) (val_main_v56 (F := Ideal) x0 x1 x2 x3 x4) (shapeCast S1650000x1 (val_main_v29 (F := Ideal) x1) h) := by
  funext i
  obtain ⟨p, q, rfl⟩ : ∃ (p : Fin 1650000) (q : Fin 128), i = ix2 p q := ⟨i 0, i 1, eq_ix2 i⟩
  rw [scaleRows_apply, Cert.LibKeepdims.shapeCast_a_a1_apply, val_main_v58_apply, val_main_v57_apply, val_main_v49_apply]
  have e : idx_main_v49 (idx_main_v57 (ix2 p q)) = ix1 p :=
    funext fun a => Fin.ext (by match a with | ⟨0, _⟩ => rfl)
  rw [e]
  exact mul_comm _ _

/-- The result: the second aggregate plus the bias row, then the row-wise log-softmax. -/
theorem v65_eq (x0 : FVec Ideal S50000x1 .f32) (x1 : IVec S2x1600000 32) (x2 : FVec Ideal S1x64 .f32) (x3 : FVec Ideal S64 .f32) (x4 : FVec Ideal S64x128 .f32) (x5 : FVec Ideal S128 .f32)
    (h : S128.ShapeCasts S1x128) :
    val_main_v65 (F := Ideal) x0 x1 x2 x3 x4 x5
      = biasLogSoftmax (N := 50000) (C := 128) (val_main_v61 (F := Ideal) x0 x1 x2 x3 x4) (shapeCast S1x128 x5 h) := by
  funext i
  obtain ⟨p, q, rfl⟩ : ∃ (p : Fin 50000) (q : Fin 128), i = ix2 p q := ⟨i 0, i 1, eq_ix2 i⟩
  rw [biasLogSoftmax_apply]
  generalize hz : biased (val_main_v61 (F := Ideal) x0 x1 x2 x3 x4) (shapeCast S1x128 x5 h) p = z
  -- row p of the aggregate plus the bias is z
  have h64 : ∀ r : Fin 128, val_main_v64 (F := Ideal) x0 x1 x2 x3 x4 x5 (ix2 p r) = z r := by
    intro r
    rw [← hz, val_main_v64_apply, val_main_v63_apply, val_main_v62_apply]
    have e : idx_main_v62 (idx_main_v63 (ix2 p r)) = ix1 r :=
      funext fun a => Fin.ext (by match a with | ⟨0, _⟩ => rfl)
    rw [e]
    show _ = val_main_v61 (F := Ideal) x0 x1 x2 x3 x4 (ix2 p r) + shapeCast S1x128 x5 h (ix2 (0 : Fin 1) r)
    rw [shapeCast_a_1a_apply]
    rfl
  -- the row maximum, taken once more against −∞, is the row maximum
  have hM : val_main_call2_v2 (F := Ideal) x0 x1 x2 x3 x4 x5 (ix1 p) = rowMax z := by
    rw [val_main_call2_v2_apply, val_main_call2_v1_apply, val_main_call2_cst_0_apply]
    unfold val_main_call2_v0 val_main_call2_cst
    rw [hostRowMax_apply (m := 50000) (n := 128) (val_main_v64 (F := Ideal) x0 x1 x2 x3 x4 x5) _ _ p,
      show (fun r : Fin 128 => val_main_v64 (F := Ideal) x0 x1 x2 x3 x4 x5 (ix2 p r)) = z from funext h64]
    exact max_negInfW _
  -- the shifted row
  have h5 : ∀ r : Fin 128, val_main_call2_v5 (F := Ideal) x0 x1 x2 x3 x4 x5 (ix2 p r) = z r - rowMax z := by
    intro r
    rw [val_main_call2_v5_apply, h64, val_main_call2_v4_apply, val_main_call2_v3_apply]
    have e : idx_main_call2_v3 (idx_main_call2_v4 (ix2 p r)) = ix1 p :=
      funext fun a => Fin.ext (by match a with | ⟨0, _⟩ => rfl)
    rw [e, hM]
    rfl
  -- the logarithm of the sum of the exponentials, from the zero word
  have h10 : val_main_call2_v10 (F := Ideal) x0 x1 x2 x3 x4 x5 (ix2 p q)
      = Ideal.log (∑ r : Fin 128, Ideal.exp (z r - rowMax z)) := by
    rw [val_main_call2_v10_apply, val_main_call2_v9_apply, val_main_call2_v8_apply]
    have e : idx_main_call2_v8 (idx_main_call2_v10 (ix2 p q)) = ix1 p :=
      funext fun a => Fin.ext (by match a with | ⟨0, _⟩ => rfl)
    rw [e, val_main_call2_v7_apply, val_main_call2_cst_1_apply]
    simp only [Ideal.ofBits_def, Ideal.ofBits_zero_f32, zero_add, Ideal.hostUnary_log_def]
    refine congrArg Ideal.log (Finset.sum_congr rfl fun r _ => ?_)
    have er : idx_main_call2_v7 (ix1 p) r = ix2 p r :=
      funext fun a => Fin.ext (by match a with | ⟨0, _⟩ => rfl | ⟨1, _⟩ => rfl)
    rw [er, val_main_call2_v6_apply, h5]
    rfl
  rw [val_main_v65_apply, h5, h10]
  rfl

end Cert.ReferenceIdeal.Stages

end
-- ==== Proof.LibHostChunks.lean ====
/-
  Host operations in a row, cut into short stretches. The buffer contents after two stretches in a row are the
  second's after the first's; so the contents after the first k + j operations of a line are those after the next j
  operations run from the contents after the first k. A buffer that no operation of a stretch writes holds after
  the stretch what it held before.
-/
import Idealize.ShloMosaic.Lib.StableHlo.Run

noncomputable section

namespace Cert.HostChunks

open Idealize.ShloMosaic Idealize.ShloMosaic.StableHlo

variable {τ : Topo} {sig : RefSig} {Val : EltTy → Type}

/-- The contents after two stretches in a row are the second's after the first's. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- The contents after the first k + j operations: the next j operations run from the contents after the first k. -/
theorem after_take_add (ops : List (HloOp τ sig Val)) (V : Valuation τ sig Val) (k j : ℕ) :
    StableHlo.after (ops.take (k + j)) V = StableHlo.after ((ops.drop k).take j) (StableHlo.after (ops.take k) V) := by
  rw [List.take_add, after_append]

/-- The contents after the whole line, when it has at most n operations, are those after its first n. -/
theorem after_take_of_length_le (ops : List (HloOp τ sig Val)) (V : Valuation τ sig Val) (n : ℕ) (h : ops.length ≤ n) :
    StableHlo.after ops V = StableHlo.after (ops.take n) V := by
  rw [List.take_of_length_le h]

end Cert.HostChunks

/-- Closes `after ops V b = V b` for a LITERAL list `ops` (or a named one, given to unfold) none of whose operations
    writes the buffer b. -/
macro "keeps_buffer" ops:ident : tactic => `(tactic|
  exact Idealize.ShloMosaic.StableHlo.after_of_forall_not_mem _ _ (List.forall_iff_forall_mem.mp (by
    simp only [$ops:ident, List.take_succ_cons, List.take_zero, List.drop_succ_cons, List.drop_zero, List.Forall,
      Idealize.ShloMosaic.StableHlo.nullary_writes, Idealize.ShloMosaic.StableHlo.unary_writes,
      Idealize.ShloMosaic.StableHlo.binary_writes, Idealize.ShloMosaic.StableHlo.ternary_writes,
      Idealize.ShloMosaic.StableHlo.quaternary_writes, Idealize.ShloMosaic.StableHlo.reshape_writes,
      Idealize.ShloMosaic.StableHlo.binaryIndexed_writes, Finset.mem_singleton]
    repeat' apply And.intro
    all_goals exact Idealize.ShloMosaic.StableHlo.devRef_ne_of_ne (by decide))))

end
-- ==== Proof.FoldA.lean ====
/-
  The kernel program's buffers followed through its run, first half: from the launch memory to the first layer's
  aggregate. At each boundary between a stretch of host operations and a launch, every buffer still needed later is
  named by the reference program's stage that computes the same array from the same arguments: the edge lists with
  self loops, the degree normalisation and the edge norm are computed by the same host operations in both programs,
  each launch's output array is the row-wise map of its inputs, and a buffer nothing writes keeps its contents.
-/
import proofs.«123378_j41532333752332_1_alg».proof.Proof.Gen.KernelIdeal.Frame
import proofs.«123378_j41532333752332_1_alg».proof.Proof.Region0
import proofs.«123378_j41532333752332_1_alg».proof.Proof.Region1
import proofs.«123378_j41532333752332_1_alg».proof.Proof.RefStages
import proofs.«123378_j41532333752332_1_alg».proof.Proof.LibHostChunks
import Idealize.ShloMosaic.Lib.StableHlo.Run

set_option maxRecDepth 16384

noncomputable section

namespace Cert.KernelIdeal.Fold

open Cert.KernelIdeal Cert.KernelIdeal.Gen Cert.KernelIdeal.RegionValue Cert.GcnSpec Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first host stretch: the edge lists with self loops, and the degree's two readings -/

/-- The source list: row 0 of the edge list, then every node once. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl

/-- The target list: row 1 of the edge list, then every node once. -/
theorem W1_v6 : W1 m ρ c (Proc.devRef .tc main_v6) = val_main_v6 (F := Ideal) (m ((c : Thread nD τ).loc main_arg1)) := by
  show StableHlo.after hostOps0 (W0 m ρ c) (Proc.devRef .tc main_v6) = _
  after_results
  rfl

/-- Where the degree (ones added up at the targets) is positive. -/
theorem W1_v12 : W1 m ρ c (Proc.devRef .tc main_v12) = val_main_v12 (F := Ideal) (m ((c : Thread nD τ).loc main_arg1)) := by
  show StableHlo.after hostOps0 (W0 m ρ c) (Proc.devRef .tc main_v12) = _
  after_results
  rfl

/-- The reciprocal square root of the degree. -/
theorem W1_v13 : W1 m ρ c (Proc.devRef .tc main_v13) = val_main_v13 (F := Ideal) (m ((c : Thread nD τ).loc main_arg1)) := by
  show StableHlo.after hostOps0 (W0 m ρ c) (Proc.devRef .tc main_v13) = _
  after_results
  rfl

/-- The zero word. -/
theorem W1_cst_2 : W1 m ρ c (Proc.devRef .tc main_cst_2) = val_main_cst_2 (F := Ideal) := by
  show StableHlo.after hostOps0 (W0 m ρ c) (Proc.devRef .tc main_cst_2) = _
  after_results
  rfl

/-! ## After the selection: the degree normalisation -/

/-- The selection's result from any contents: the reciprocal square root where the flag is set, the zero word
    repeated elsewhere. -/
theorem hostOps0_1_v14 (V : Valuation τ sig (Elt Ideal)) :
    StableHlo.after (hostOps0_1 : List (HloOp τ sig (Elt Ideal))) V (Proc.devRef .tc main_v14)
      = select (V (Proc.devRef .tc main_v12)) (V (Proc.devRef .tc main_v13))
          (broadcastInDim S50000 ![] bcast_S_S50000 (id (V (Proc.devRef .tc main_cst_2)))) := by
  after_results
  rfl

/-- The reciprocal square root where the degree is positive, zero elsewhere. -/
theorem W2_v14 : W2 m ρ c (Proc.devRef .tc main_v14) = val_main_v14 (F := Ideal) (m ((c : Thread nD τ).loc main_arg1)) := by
  show StableHlo.after hostOps0_1 (W1 m ρ c) (Proc.devRef .tc main_v14) = _
  rw [hostOps0_1_v14, W1_v12 m ρ c, W1_v13 m ρ c, W1_cst_2 m ρ c]
  rfl

theorem W2_v3 : W2 m ρ c (Proc.devRef .tc main_v3) = val_main_v3 (F := Ideal) (m ((c : Thread nD τ).loc main_arg1)) :=
  (show W2 m ρ c (Proc.devRef .tc main_v3) = W1 m ρ c (Proc.devRef .tc main_v3) by keeps_buffer hostOps0_1).trans (W1_v3 m ρ c)

theorem W2_v6 : W2 m ρ c (Proc.devRef .tc main_v6) = val_main_v6 (F := Ideal) (m ((c : Thread nD τ).loc main_arg1)) :=
  (show W2 m ρ c (Proc.devRef .tc main_v6) = W1 m ρ c (Proc.devRef .tc main_v6) by keeps_buffer hostOps0_1).trans (W1_v6 m ρ c)

/-- The arguments are as launched: nothing has written them. -/
theorem W2_arg0 : W2 m ρ c (Proc.devRef .tc main_arg0) = (m ((c : Thread nD τ).loc main_arg0)) :=
  (show W2 m ρ c (Proc.devRef .tc main_arg0) = W1 m ρ c (Proc.devRef .tc main_arg0) by keeps_buffer hostOps0_1).trans
    (show W1 m ρ c (Proc.devRef .tc main_arg0) = W0 m ρ c (Proc.devRef .tc main_arg0) by keeps_buffer hostOps0)

theorem W2_arg2 : W2 m ρ c (Proc.devRef .tc main_arg2) = (m ((c : Thread nD τ).loc main_arg2)) :=
  (show W2 m ρ c (Proc.devRef .tc main_arg2) = W1 m ρ c (Proc.devRef .tc main_arg2) by keeps_buffer hostOps0_1).trans
    (show W1 m ρ c (Proc.devRef .tc main_arg2) = W0 m ρ c (Proc.devRef .tc main_arg2) by keeps_buffer hostOps0)

theorem W2_arg3 : W2 m ρ c (Proc.devRef .tc main_arg3) = (m ((c : Thread nD τ).loc main_arg3)) :=
  (show W2 m ρ c (Proc.devRef .tc main_arg3) = W1 m ρ c (Proc.devRef .tc main_arg3) by keeps_buffer hostOps0_1).trans
    (show W1 m ρ c (Proc.devRef .tc main_arg3) = W0 m ρ c (Proc.devRef .tc main_arg3) by keeps_buffer hostOps0)

theorem W2_arg4 : W2 m ρ c (Proc.devRef .tc main_arg4) = (m ((c : Thread nD τ).loc main_arg4)) :=
  (show W2 m ρ c (Proc.devRef .tc main_arg4) = W1 m ρ c (Proc.devRef .tc main_arg4) by keeps_buffer hostOps0_1).trans
    (show W1 m ρ c (Proc.devRef .tc main_arg4) = W0 m ρ c (Proc.devRef .tc main_arg4) by keeps_buffer hostOps0)

theorem W2_arg5 : W2 m ρ c (Proc.devRef .tc main_arg5) = (m ((c : Thread nD τ).loc main_arg5)) :=
  (show W2 m ρ c (Proc.devRef .tc main_arg5) = W1 m ρ c (Proc.devRef .tc main_arg5) by keeps_buffer hostOps0_1).trans
    (show W1 m ρ c (Proc.devRef .tc main_arg5) = W0 m ρ c (Proc.devRef .tc main_arg5) by keeps_buffer hostOps0)

/-! ## The stretch before the first launch, cut in three

The stretch reads the normalisation at the source indices (nine operations), at the target indices (nine more), and
then multiplies the two and makes the product a column and the two biases rows (four). -/

/-- An index list read the host's way: an index below zero counts from the end (the number of nodes is added), and
    the list is made a column. -/
def wrapIdx (i : (⟨S1650000, .i32⟩ : BufTy).Contents (Elt Ideal)) : (⟨S1650000x1, .i32⟩ : BufTy).Contents (Elt Ideal) :=
  broadcastInDim S1650000x1 ![0] bcast_S1650000_S1650000x1_0
    (select (cmpi .slt i (broadcastInDim S1650000 ![] bcast_S_S1650000 (constantI S_ 32 0#32)))
      (addi i (broadcastInDim S1650000 ![] bcast_S_S1650000 (constantI S_ 32 50000#32))) i)

/-- The per-node normalisation read at an index list. -/
def normAt (d : (⟨S50000, .f32⟩ : BufTy).Contents (Elt Ideal)) (i : (⟨S1650000, .i32⟩ : BufTy).Contents (Elt Ideal)) :
    (⟨S1650000, .f32⟩ : BufTy).Contents (Elt Ideal) :=
  Host.gather gather_S50000_S1650000x1_S1650000_n_0_n_n_0_1_1 d (wrapIdx i)

/-- The product of two per-edge lists, as a column. -/
def prodCol (a b : FVec Ideal S1650000 .f32) : FVec Ideal S1650000x1 .f32 :=
  shapeCast S1650000x1 (mulf a b) shapeCasts_S1650000_S1650000x1

section Chunks

variable (V : Valuation τ sig (Elt Ideal))

/-- The stretch is its first nine operations, then the next nine, then the last four. -/
theorem hostOps0_2_cut :
    StableHlo.after (hostOps0_2 : List (HloOp τ sig (Elt Ideal))) V
      = StableHlo.after ((hostOps0_2 : List (HloOp τ sig (Elt Ideal))).drop 18) (StableHlo.after (((hostOps0_2 : List (HloOp τ sig (Elt Ideal))).drop 9).take 9) (StableHlo.after ((hostOps0_2 : List (HloOp τ sig (Elt Ideal))).take 9) V)) := by
  have split : (hostOps0_2 : List (HloOp τ sig (Elt Ideal))) = hostOps0_2.take 9 ++ ((hostOps0_2.drop 9).take 9 ++ hostOps0_2.drop 18) := by rfl
  calc StableHlo.after (hostOps0_2 : List (HloOp τ sig (Elt Ideal))) V
      = StableHlo.after ((hostOps0_2 : List (HloOp τ sig (Elt Ideal))).take 9 ++ (((hostOps0_2 : List (HloOp τ sig (Elt Ideal))).drop 9).take 9 ++ (hostOps0_2 : List (HloOp τ sig (Elt Ideal))).drop 18)) V :=
        congrArg (fun l => StableHlo.after l V) split
    _ = _ := by rw [Cert.HostChunks.after_append, Cert.HostChunks.after_append]

/-- The first nine operations gather the normalisation at the source indices. -/
theorem chunkA_v21 : StableHlo.after ((hostOps0_2 : List (HloOp τ sig (Elt Ideal))).take 9) V (Proc.devRef .tc main_v21)
    = normAt (V (Proc.devRef .tc main_v14)) (V (Proc.devRef .tc main_v3)) := by
  simp only [hostOps0_2, List.take_succ_cons, List.take_zero]
  after_results
  rfl

/-- The next nine gather it at the target indices. -/
theorem chunkB_v28 : StableHlo.after (((hostOps0_2 : List (HloOp τ sig (Elt Ideal))).drop 9).take 9) V (Proc.devRef .tc main_v28)
    = normAt (V (Proc.devRef .tc main_v14)) (V (Proc.devRef .tc main_v6)) := by
  simp only [hostOps0_2, List.take_succ_cons, List.take_zero, List.drop_succ_cons, List.drop_zero]
  after_results
  rfl

/-- The last four: the product of the two gathered lists, as a column. -/
theorem chunkC_v30 : StableHlo.after ((hostOps0_2 : List (HloOp τ sig (Elt Ideal))).drop 18) V (Proc.devRef .tc main_v30)
    = prodCol (V (Proc.devRef .tc main_v21)) (V (Proc.devRef .tc main_v28)) := by
  simp only [hostOps0_2, List.drop_succ_cons, List.drop_zero]
  after_results
  rfl

/-- The last four: the first bias as a row. -/
theorem chunkC_v31 : StableHlo.after ((hostOps0_2 : List (HloOp τ sig (Elt Ideal))).drop 18) V (Proc.devRef .tc main_v31)
    = shapeCast S1x64 (V (Proc.devRef .tc main_arg3)) shapeCasts_S64_S1x64 := by
  simp only [hostOps0_2, List.drop_succ_cons, List.drop_zero]
  after_results
  rfl

/-- The last four: the second bias as a row. -/
theorem chunkC_v32 : StableHlo.after ((hostOps0_2 : List (HloOp τ sig (Elt Ideal))).drop 18) V (Proc.devRef .tc main_v32)
    = shapeCast S1x128 (V (Proc.devRef .tc main_arg5)) shapeCasts_S128_S1x128 := by
  simp only [hostOps0_2, List.drop_succ_cons, List.drop_zero]
  after_results
  rfl

/-- What the first nine operations leave alone. -/
theorem chunkA_v6 : StableHlo.after ((hostOps0_2 : List (HloOp τ sig (Elt Ideal))).take 9) V (Proc.devRef .tc main_v6) = V (Proc.devRef .tc main_v6) := by
  keeps_buffer hostOps0_2
theorem chunkA_v14 : StableHlo.after ((hostOps0_2 : List (HloOp τ sig (Elt Ideal))).take 9) V (Proc.devRef .tc main_v14) = V (Proc.devRef .tc main_v14) := by
  keeps_buffer hostOps0_2
theorem chunkA_arg3 : StableHlo.after ((hostOps0_2 : List (HloOp τ sig (Elt Ideal))).take 9) V (Proc.devRef .tc main_arg3) = V (Proc.devRef .tc main_arg3) := by
  keeps_buffer hostOps0_2
theorem chunkA_arg5 : StableHlo.after ((hostOps0_2 : List (HloOp τ sig (Elt Ideal))).take 9) V (Proc.devRef .tc main_arg5) = V (Proc.devRef .tc main_arg5) := by
  keeps_buffer hostOps0_2

/-- What the next nine leave alone. -/
theorem chunkB_v21 : StableHlo.after (((hostOps0_2 : List (HloOp τ sig (Elt Ideal))).drop 9).take 9) V (Proc.devRef .tc main_v21) = V (Proc.devRef .tc main_v21) := by
  keeps_buffer hostOps0_2
theorem chunkB_arg3 : StableHlo.after (((hostOps0_2 : List (HloOp τ sig (Elt Ideal))).drop 9).take 9) V (Proc.devRef .tc main_arg3) = V (Proc.devRef .tc main_arg3) := by
  keeps_buffer hostOps0_2
theorem chunkB_arg5 : StableHlo.after (((hostOps0_2 : List (HloOp τ sig (Elt Ideal))).drop 9).take 9) V (Proc.devRef .tc main_arg5) = V (Proc.devRef .tc main_arg5) := by
  keeps_buffer hostOps0_2

end Chunks

/-! ## At the first launch's entry -/

/-- The edge norm: the normalisation at the source times the normalisation at the target, as a column. -/
theorem W3_v30 : W3 m ρ c (Proc.devRef .tc main_v30) = shapeCast S1650000x1 (val_main_v29 (F := Ideal) (m ((c : Thread nD τ).loc main_arg1))) shapeCasts_S1650000_S1650000x1 := by
  show StableHlo.after hostOps0_2 (W2 m ρ c) (Proc.devRef .tc main_v30) = _
  rw [hostOps0_2_cut, chunkC_v30, chunkB_v28, chunkB_v21, chunkA_v21, chunkA_v14, chunkA_v6,
    W2_v14 m ρ c, W2_v3 m ρ c, W2_v6 m ρ c]
  rfl

/-- The first bias as a row. -/
theorem W3_v31 : W3 m ρ c (Proc.devRef .tc main_v31) = shapeCast S1x64 (m ((c : Thread nD τ).loc main_arg3)) shapeCasts_S64_S1x64 := by
  show StableHlo.after hostOps0_2 (W2 m ρ c) (Proc.devRef .tc main_v31) = _
  rw [hostOps0_2_cut, chunkC_v31, chunkB_arg3, chunkA_arg3, W2_arg3 m ρ c]

/-- The second bias as a row. -/
theorem W3_v32 : W3 m ρ c (Proc.devRef .tc main_v32) = shapeCast S1x128 (m ((c : Thread nD τ).loc main_arg5)) shapeCasts_S128_S1x128 := by
  show StableHlo.after hostOps0_2 (W2 m ρ c) (Proc.devRef .tc main_v32) = _
  rw [hostOps0_2_cut, chunkC_v32, chunkB_arg5, chunkA_arg5, W2_arg5 m ρ c]

theorem W3_v3 : W3 m ρ c (Proc.devRef .tc main_v3) = val_main_v3 (F := Ideal) (m ((c : Thread nD τ).loc main_arg1)) :=
  (show W3 m ρ c (Proc.devRef .tc main_v3) = W2 m ρ c (Proc.devRef .tc main_v3) by keeps_buffer hostOps0_2).trans (W2_v3 m ρ c)

theorem W3_v6 : W3 m ρ c (Proc.devRef .tc main_v6) = val_main_v6 (F := Ideal) (m ((c : Thread nD τ).loc main_arg1)) :=
  (show W3 m ρ c (Proc.devRef .tc main_v6) = W2 m ρ c (Proc.devRef .tc main_v6) by keeps_buffer hostOps0_2).trans (W2_v6 m ρ c)

theorem W3_arg0 : W3 m ρ c (Proc.devRef .tc main_arg0) = (m ((c : Thread nD τ).loc main_arg0)) :=
  (show W3 m ρ c (Proc.devRef .tc main_arg0) = W2 m ρ c (Proc.devRef .tc main_arg0) by keeps_buffer hostOps0_2).trans (W2_arg0 m ρ c)

theorem W3_arg2 : W3 m ρ c (Proc.devRef .tc main_arg2) = (m ((c : Thread nD τ).loc main_arg2)) :=
  (show W3 m ρ c (Proc.devRef .tc main_arg2) = W2 m ρ c (Proc.devRef .tc main_arg2) by keeps_buffer hostOps0_2).trans (W2_arg2 m ρ c)

theorem W3_arg4 : W3 m ρ c (Proc.devRef .tc main_arg4) = (m ((c : Thread nD τ).loc main_arg4)) :=
  (show W3 m ρ c (Proc.devRef .tc main_arg4) = W2 m ρ c (Proc.devRef .tc main_arg4) by keeps_buffer hostOps0_2).trans (W2_arg4 m ρ c)

/-! ## After the first launch: the features times the first layer's weights -/

/-- The launch's output array is the outer product of the feature column and the weight row. -/
theorem W4_v33 : W4 m ρ c (Proc.devRef .tc main_v33) = val_main_v30 (F := Ideal) (m ((c : Thread nD τ).loc main_arg0)) (m ((c : Thread nD τ).loc main_arg2)) := by
  refine (W4_arr m ρ c 2).trans ((arr0 (V3 m ρ) c).trans ?_)
  rw [Cert.ReferenceIdeal.Stages.v30_eq]
  exact congrArg₂ (outer (N := 50000) (C := 64)) (W3_arg0 m ρ c) (W3_arg2 m ρ c)

theorem W4_v3 : W4 m ρ c (Proc.devRef .tc main_v3) = val_main_v3 (F := Ideal) (m ((c : Thread nD τ).loc main_arg1)) :=
  (W4_of_ne m ρ c main_v3 (by decide)).trans (W3_v3 m ρ c)

theorem W4_v6 : W4 m ρ c (Proc.devRef .tc main_v6) = val_main_v6 (F := Ideal) (m ((c : Thread nD τ).loc main_arg1)) :=
  (W4_of_ne m ρ c main_v6 (by decide)).trans (W3_v6 m ρ c)

theorem W4_v30 : W4 m ρ c (Proc.devRef .tc main_v30) = shapeCast S1650000x1 (val_main_v29 (F := Ideal) (m ((c : Thread nD τ).loc main_arg1))) shapeCasts_S1650000_S1650000x1 :=
  (W4_of_ne m ρ c main_v30 (by decide)).trans (W3_v30 m ρ c)

theorem W4_v31 : W4 m ρ c (Proc.devRef .tc main_v31) = shapeCast S1x64 (m ((c : Thread nD τ).loc main_arg3)) shapeCasts_S64_S1x64 :=
  (W4_of_ne m ρ c main_v31 (by decide)).trans (W3_v31 m ρ c)

theorem W4_v32 : W4 m ρ c (Proc.devRef .tc main_v32) = shapeCast S1x128 (m ((c : Thread nD τ).loc main_arg5)) shapeCasts_S128_S1x128 :=
  (W4_of_ne m ρ c main_v32 (by decide)).trans (W3_v32 m ρ c)

theorem W4_arg4 : W4 m ρ c (Proc.devRef .tc main_arg4) = (m ((c : Thread nD τ).loc main_arg4)) :=
  (W4_of_ne m ρ c main_arg4 (by decide)).trans (W3_arg4 m ρ c)

/-! ## After the stretch that gathers the transformed rows at the source indices -/

/-- The transformed features, one row per edge. -/
theorem W5_v40 : W5 m ρ c (Proc.devRef .tc main_v40) = val_main_v38 (F := Ideal) (m ((c : Thread nD τ).loc main_arg0)) (m ((c : Thread nD τ).loc main_arg1)) (m ((c : Thread nD τ).loc main_arg2)) := by
  show StableHlo.after hostOps1 (W4 m ρ c) (Proc.devRef .tc main_v40) = _
  generalize hV : W4 m ρ c = V
  after_results
  subst hV
  rw [W4_v33 m ρ c, W4_v3 m ρ c]
  rfl

theorem W5_v3 : W5 m ρ c (Proc.devRef .tc main_v3) = val_main_v3 (F := Ideal) (m ((c : Thread nD τ).loc main_arg1)) :=
  (show W5 m ρ c (Proc.devRef .tc main_v3) = W4 m ρ c (Proc.devRef .tc main_v3) by keeps_buffer hostOps1).trans (W4_v3 m ρ c)

theorem W5_v6 : W5 m ρ c (Proc.devRef .tc main_v6) = val_main_v6 (F := Ideal) (m ((c : Thread nD τ).loc main_arg1)) :=
  (show W5 m ρ c (Proc.devRef .tc main_v6) = W4 m ρ c (Proc.devRef .tc main_v6) by keeps_buffer hostOps1).trans (W4_v6 m ρ c)

theorem W5_v30 : W5 m ρ c (Proc.devRef .tc main_v30) = shapeCast S1650000x1 (val_main_v29 (F := Ideal) (m ((c : Thread nD τ).loc main_arg1))) shapeCasts_S1650000_S1650000x1 :=
  (show W5 m ρ c (Proc.devRef .tc main_v30) = W4 m ρ c (Proc.devRef .tc main_v30) by keeps_buffer hostOps1).trans (W4_v30 m ρ c)

theorem W5_v31 : W5 m ρ c (Proc.devRef .tc main_v31) = shapeCast S1x64 (m ((c : Thread nD τ).loc main_arg3)) shapeCasts_S64_S1x64 :=
  (show W5 m ρ c (Proc.devRef .tc main_v31) = W4 m ρ c (Proc.devRef .tc main_v31) by keeps_buffer hostOps1).trans (W4_v31 m ρ c)

theorem W5_v32 : W5 m ρ c (Proc.devRef .tc main_v32) = shapeCast S1x128 (m ((c : Thread nD τ).loc main_arg5)) shapeCasts_S128_S1x128 :=
  (show W5 m ρ c (Proc.devRef .tc main_v32) = W4 m ρ c (Proc.devRef .tc main_v32) by keeps_buffer hostOps1).trans (W4_v32 m ρ c)

theorem W5_arg4 : W5 m ρ c (Proc.devRef .tc main_arg4) = (m ((c : Thread nD τ).loc main_arg4)) :=
  (show W5 m ρ c (Proc.devRef .tc main_arg4) = W4 m ρ c (Proc.devRef .tc main_arg4) by keeps_buffer hostOps1).trans (W4_arg4 m ρ c)

/-! ## After the second launch: each edge's row scaled by the edge's norm -/

/-- The launch's output array is its first input with row p scaled by the p-th entry of its second. -/
theorem W6_v41 : W6 m ρ c (Proc.devRef .tc main_v41) = val_main_v40 (F := Ideal) (m ((c : Thread nD τ).loc main_arg0)) (m ((c : Thread nD τ).loc main_arg1)) (m ((c : Thread nD τ).loc main_arg2)) := by
  refine (W6_arr m ρ c 2).trans ((arr1 (V5 m ρ) c).trans ?_)
  rw [Cert.ReferenceIdeal.Stages.v40_eq _ _ _ shapeCasts_S1650000_S1650000x1]
  exact congrArg₂ (scaleRows (N := 1650000) (C := 64)) (W5_v40 m ρ c) (W5_v30 m ρ c)

theorem W6_v3 : W6 m ρ c (Proc.devRef .tc main_v3) = val_main_v3 (F := Ideal) (m ((c : Thread nD τ).loc main_arg1)) :=
  (W6_of_ne m ρ c main_v3 (by decide)).trans (W5_v3 m ρ c)

theorem W6_v6 : W6 m ρ c (Proc.devRef .tc main_v6) = val_main_v6 (F := Ideal) (m ((c : Thread nD τ).loc main_arg1)) :=
  (W6_of_ne m ρ c main_v6 (by decide)).trans (W5_v6 m ρ c)

theorem W6_v31 : W6 m ρ c (Proc.devRef .tc main_v31) = shapeCast S1x64 (m ((c : Thread nD τ).loc main_arg3)) shapeCasts_S64_S1x64 :=
  (W6_of_ne m ρ c main_v31 (by decide)).trans (W5_v31 m ρ c)

theorem W6_v32 : W6 m ρ c (Proc.devRef .tc main_v32) = shapeCast S1x128 (m ((c : Thread nD τ).loc main_arg5)) shapeCasts_S128_S1x128 :=
  (W6_of_ne m ρ c main_v32 (by decide)).trans (W5_v32 m ρ c)

theorem W6_arg4 : W6 m ρ c (Proc.devRef .tc main_arg4) = (m ((c : Thread nD τ).loc main_arg4)) :=
  (W6_of_ne m ρ c main_arg4 (by decide)).trans (W5_arg4 m ρ c)

/-- The edge norm is one of the launch's inputs: an input array leaves the launch as it entered. -/
theorem W6_v30 : W6 m ρ c (Proc.devRef .tc main_v30) = shapeCast S1650000x1 (val_main_v29 (F := Ideal) (m ((c : Thread nD τ).loc main_arg1))) shapeCasts_S1650000_S1650000x1 :=
  ((W6_arr m ρ c 1).trans (((dat1 (V5 m ρ) c).arrAt_in 1 rfl _).trans (A_eq1 (V5 m ρ) c 1))).trans (W5_v30 m ρ c)

/-! ## What the first half hands on: the buffers still needed, at the boundary after the first scatter-add -/

/-- The first layer's aggregate. -/
theorem W7_v44 : W7 m ρ c (Proc.devRef .tc main_v44) = val_main_v43 (F := Ideal) (m ((c : Thread nD τ).loc main_arg0)) (m ((c : Thread nD τ).loc main_arg1)) (m ((c : Thread nD τ).loc main_arg2)) := by
  show StableHlo.after hostOps2 (W6 m ρ c) (Proc.devRef .tc main_v44) = _
  generalize hV : W6 m ρ c = V
  after_results
  subst hV
  rw [W6_v41 m ρ c, W6_v6 m ρ c]
  rfl

/-- The source list with self loops. -/
theorem W7_v3 : W7 m ρ c (Proc.devRef .tc main_v3) = val_main_v3 (F := Ideal) (m ((c : Thread nD τ).loc main_arg1)) :=
  (show W7 m ρ c (Proc.devRef .tc main_v3) = W6 m ρ c (Proc.devRef .tc main_v3) by keeps_buffer hostOps2).trans (W6_v3 m ρ c)

/-- The target list with self loops. -/
theorem W7_v6 : W7 m ρ c (Proc.devRef .tc main_v6) = val_main_v6 (F := Ideal) (m ((c : Thread nD τ).loc main_arg1)) :=
  (show W7 m ρ c (Proc.devRef .tc main_v6) = W6 m ρ c (Proc.devRef .tc main_v6) by keeps_buffer hostOps2).trans (W6_v6 m ρ c)

/-- The edge norm as a column. -/
theorem W7_v30 : W7 m ρ c (Proc.devRef .tc main_v30) = shapeCast S1650000x1 (val_main_v29 (F := Ideal) (m ((c : Thread nD τ).loc main_arg1))) shapeCasts_S1650000_S1650000x1 :=
  (show W7 m ρ c (Proc.devRef .tc main_v30) = W6 m ρ c (Proc.devRef .tc main_v30) by keeps_buffer hostOps2).trans (W6_v30 m ρ c)

/-- The first bias as a row. -/
theorem W7_v31 : W7 m ρ c (Proc.devRef .tc main_v31) = shapeCast S1x64 (m ((c : Thread nD τ).loc main_arg3)) shapeCasts_S64_S1x64 :=
  (show W7 m ρ c (Proc.devRef .tc main_v31) = W6 m ρ c (Proc.devRef .tc main_v31) by keeps_buffer hostOps2).trans (W6_v31 m ρ c)

/-- The second bias as a row. -/
theorem W7_v32 : W7 m ρ c (Proc.devRef .tc main_v32) = shapeCast S1x128 (m ((c : Thread nD τ).loc main_arg5)) shapeCasts_S128_S1x128 :=
  (show W7 m ρ c (Proc.devRef .tc main_v32) = W6 m ρ c (Proc.devRef .tc main_v32) by keeps_buffer hostOps2).trans (W6_v32 m ρ c)

/-- The second layer's weights. -/
theorem W7_arg4 : W7 m ρ c (Proc.devRef .tc main_arg4) = (m ((c : Thread nD τ).loc main_arg4)) :=
  (show W7 m ρ c (Proc.devRef .tc main_arg4) = W6 m ρ c (Proc.devRef .tc main_arg4) by keeps_buffer hostOps2).trans (W6_arg4 m ρ c)

end Cert.KernelIdeal.Fold

end
-- ==== Proof.Region2.lean ====
/-
  The third launch, read as a whole array. Its grid has ten points; point t takes rows 5000·t … 5000·t + 4999 of the
  aggregate and the whole bias row and writes the same rows of the output, entry (p, q) of its block being
  max (agg(p, q) + b(q)) 0. The ten row blocks tile the 50000 rows.
-/
import proofs.«123378_j41532333752332_1_alg».proof.Proof.Gen.KernelIdeal.Frame
import proofs.«123378_j41532333752332_1_alg».proof.Proof.GcnSpec
import proofs.«123378_j41532333752332_1_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Cert.GcnSpec Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- The body's stored value at (p, q): the block's entry (p, q) plus the bias row's entry q, then the maximum with the
    zero word. -/
theorem pay2_apply (x0 : Vec Ideal S5000x64 .f32) (x1 : Vec Ideal S1x64 .f32) (p : Fin 5000) (q : Fin 64) :
    k2_pay1 (F := Ideal) x0 x1 (ix2 p q) = max (x0 (ix2 p q) + x1 (ix2 (0 : Fin 1) q)) zeroW := by
  unfold k2_pay1
  rw [maximumf_apply, addf_apply, shapeCast_self, shapeCast_self, broadcastTo_1b_ab_apply, broadcast_apply]
  rfl

/-- The index maps over the grid: the aggregate's and the output's row block is the point's number; every other block
    index is zero. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is its block of the rectified biased aggregate of the arrays the region finds. -/
theorem flushed2 (c : Dev nD) (t : Fin cfg2.N) :
    (dat2 V c).flushed 2 t
      = ((cfg2.win 2).blk t).view.read (Elt Ideal) (biasRelu (N := 50000) (C := 64) (V c main_v44) (V c main_v31)) := by
  show (cfg2.win 2).cut (grid2.coords t) ((dat2 V c).after 2 t) = _
  rw [after2_2]
  unfold out2_2
  rw [View.canon_unit_zero zeroOffsets2]
  simp only [View.ld_unit_zero (S := S5000x64) zeroOffsets2, View.ld_unit_zero (S := S1x64) zeroOffsets2]
  obtain ⟨e0, e1, e2, e3, e4, e5⟩ := blockIdx2 t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q) = _
  have h0 : ((cfg2.win 0).blk t).view.emb (ix2 p q)
      = ix2 ((((cfg2.win 2).blk t).view.emb (ix2 p q)) 0) ((((cfg2.win 2).blk t).view.emb (ix2 p q)) 1) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * q.val = win2_2.index t (1 : Fin 2) * 64 + 1 * q.val; omega
  have h1 : ((cfg2.win 1).blk t).view.emb (ix2 (0 : Fin 1) q) = ix2 (0 : Fin 1) ((((cfg2.win 2).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 64 + 1 * q.val = win2_2.index t (1 : Fin 2) * 64 + 1 * q.val; omega
  refine (pay2_apply (iblk2 V c 0 t) (iblk2 V c 1 t) p q).trans ?_
  refine congrArg₂ (fun a b : EReal => max (a + b) zeroW) ?_ ?_
  · exact congrArg (V c main_v44) h0
  · exact congrArg (V c main_v31) h1

/-- An index of the output array lies in point t's block iff each coordinate lies in the block's range. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Every row lies in some point's block: row r in point r / 5000's. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨e0, e1, e2, e3, e4, e5⟩ := blockIdx2 t
  have e4' : win2_2.index t (0 : Fin 2) = (i 0).val / 5000 := e4
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the launch: the aggregate plus the bias row, rectified. -/
theorem arr2 (c : Dev nD) :
    (dat2 V c).arrAt 2 cfg2.N = biasRelu (N := 50000) (C := 64) (V c main_v44) (V c main_v31) :=
  (dat2 V c).arrAt_eq_of_cover 2 _ (fun t _ => flushed2 V c t) cover2

end Cert.KernelIdeal.RegionValue

end
-- ==== Proof.Region3.lean ====
/-
  The fourth launch, read as a whole array. Its grid has ten points; point t takes rows 5000·t … 5000·t + 4999 of h and
  the whole weight matrix and writes the same rows of the output, its block being the block of h times the weights
  into a zero accumulator: entry (p, q) is Σ_k h(p, k) · w(k, q). The ten row blocks tile the 50000 rows, so the output
  array is the whole product h · w.
-/
import proofs.«123378_j41532333752332_1_alg».proof.Proof.Gen.KernelIdeal.Frame
import proofs.«123378_j41532333752332_1_alg».proof.Proof.GcnSpec
import proofs.«123378_j41532333752332_1_alg».proof.Proof.LibKeepdims
import proofs.«123378_j41532333752332_1_alg».proof.Proof.LibDenseRows
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Cert.GcnSpec Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets3 : (![0, 0] : Fin 2 → Nat) = fun _ => 0 := funext fun a => by fin_cases a <;> rfl

/-- The body's stored value at (p, q): the block's row p against the weights' column q, summed over the contracted
    coordinate. The printed dimension record is the plain one (rows × contraction by contraction × columns). -/
theorem pay3_apply (x0 : Vec Ideal S5000x64 .f32) (x1 : Vec Ideal S64x128 .f32) (p : Fin 5000) (q : Fin 128) :
    k3_pay1 (F := Ideal) x0 x1 (ix2 p q) = ∑ k : Fin 64, x0 (ix2 p k) * x1 (ix2 k q) := by
  unfold k3_pay1
  rw [shapeCast_self]
  show matmul (F := Ideal) (DotDims.plain 5000 64 128) (some .fp32) (x0 : FVec Ideal S5000x64 .f32) (x1 : FVec Ideal S64x128 .f32)
    (constant (F := Ideal) (Cert.LibDenseRows.Sh2 5000 128) .f32 0x00000000#32) (ix2 p q) = _
  exact Cert.LibDenseRows.matmul_plain_zero_apply (φ₁ := .f32) (φ₂ := .f32) (some .fp32) x0 x1 p q

/-- The index maps over the grid: the left operand's and the output's row block is the point's number; every other
    block index is zero. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is its block of the matrix product of the arrays the region finds. -/
theorem flushed3 (c : Dev nD) (t : Fin cfg3.N) :
    (dat3 V c).flushed 2 t
      = ((cfg3.win 2).blk t).view.read (Elt Ideal) (matProd (N := 50000) (K := 64) (C := 128) (V c main_v45) (V c main_arg4)) := by
  show (cfg3.win 2).cut (grid3.coords t) ((dat3 V c).after 2 t) = _
  rw [after3_2]
  unfold out3_2
  rw [View.canon_unit_zero zeroOffsets3]
  simp only [View.ld_unit_zero (S := S5000x64) zeroOffsets3, View.ld_unit_zero (S := S64x128) zeroOffsets3]
  obtain ⟨e0, e1, e2, e3, e4, e5⟩ := blockIdx3 t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (ix2 p q) = _
  have h0 : ∀ k : Fin 64, ((cfg3.win 0).blk t).view.emb (ix2 p k) = ix2 ((((cfg3.win 2).blk t).view.emb (ix2 p q)) 0) k := by
    intro k; funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * k.val = k.val; omega
  have h1 : ∀ k : Fin 64, ((cfg3.win 1).blk t).view.emb (ix2 k q) = ix2 k ((((cfg3.win 2).blk t).view.emb (ix2 p q)) 1) := by
    intro k; funext a; apply Fin.ext
    match a with
    | ⟨0, _⟩ => show win3_1.index t (0 : Fin 2) * 64 + 1 * k.val = k.val; omega
    | ⟨1, _⟩ => show win3_1.index t (1 : Fin 2) * 128 + 1 * q.val = win3_2.index t (1 : Fin 2) * 128 + 1 * q.val; omega
  refine (pay3_apply (iblk3 V c 0 t) (iblk3 V c 1 t) p q).trans ?_
  show _ = matProd (N := 50000) (K := 64) (C := 128) (V c main_v45) (V c main_arg4)
    (ix2 ((((cfg3.win 2).blk t).view.emb (ix2 p q)) 0) ((((cfg3.win 2).blk t).view.emb (ix2 p q)) 1))
  refine Eq.trans ?_ (matProd_apply (N := 50000) (K := 64) (C := 128) (V c main_v45) (V c main_arg4) _ _).symm
  refine Finset.sum_congr rfl (fun k _ => ?_)
  refine congrArg₂ (fun a b : EReal => a * b) ?_ ?_
  · exact congrArg (V c main_v45) (h0 k)
  · exact congrArg (V c main_arg4) (h1 k)

/-- An index of the output array lies in point t's block iff each coordinate lies in the block's range. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v46).slice (win3_2.rect t)).set ↔ _
  rw [View.set_slice_whole, Rect.mem_set_unit]
  exact Iff.rfl

/-- Every row lies in some point's block: row r in point r / 5000's. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1, e2, e3, e4, e5⟩ := blockIdx3 t
  have e4' : win3_2.index t (0 : Fin 2) = (i 0).val / 5000 := e4
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the launch: the matrix product of the two arrays the region finds. -/
theorem arr3 (c : Dev nD) :
    (dat3 V c).arrAt 2 cfg3.N = matProd (N := 50000) (K := 64) (C := 128) (V c main_v45) (V c main_arg4) :=
  (dat3 V c).arrAt_eq_of_cover 2 _ (fun t _ => flushed3 V c t) cover3

end Cert.KernelIdeal.RegionValue

end
-- ==== Proof.Region4.lean ====
/-
  The fifth launch, read as a whole array: the second layer's edge scaling, 128 features wide. Its grid has 165 points;
  point t takes rows 10000·t … 10000·t + 9999 of the gathered features and of the norm column and writes the same rows
  of the output, entry (p, q) of its block being feat(p, q) · norm(p). The row blocks tile the 1650000 rows.
-/
import proofs.«123378_j41532333752332_1_alg».proof.Proof.Gen.KernelIdeal.Frame
import proofs.«123378_j41532333752332_1_alg».proof.Proof.GcnSpec
import proofs.«123378_j41532333752332_1_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Cert.GcnSpec Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets4 : (![0, 0] : Fin 2 → Nat) = fun _ => 0 := funext fun a => by fin_cases a <;> rfl

/-- The body's stored value at (p, q): the feature block's entry (p, q) times the norm column's entry p. -/
theorem pay4_apply (x0 : Vec Ideal S10000x128 .f32) (x1 : Vec Ideal S10000x1 .f32) (p : Fin 10000) (q : Fin 128) :
    k4_pay1 (F := Ideal) x0 x1 (ix2 p q) = x0 (ix2 p q) * x1 (ix2 p (0 : Fin 1)) := by
  unfold k4_pay1
  rw [mulf_apply, Cert.LibKeepdims.broadcastTo_a1_ab_apply, shapeCast_self, shapeCast_self]

/-- The index maps over the grid: every window's row block is the point's number, its column block is zero. -/
theorem blockIdx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is its block of the row-scaled features of the arrays the region finds. -/
theorem flushed4 (c : Dev nD) (t : Fin cfg4.N) :
    (dat4 V c).flushed 2 t
      = ((cfg4.win 2).blk t).view.read (Elt Ideal) (scaleRows (N := 1650000) (C := 128) (V c main_v53) (V c main_v30)) := by
  show (cfg4.win 2).cut (grid4.coords t) ((dat4 V c).after 2 t) = _
  rw [after4_2]
  unfold out4_2
  rw [View.canon_unit_zero zeroOffsets4]
  simp only [View.ld_unit_zero (S := S10000x128) zeroOffsets4, View.ld_unit_zero (S := S10000x1) zeroOffsets4]
  obtain ⟨e0, e1, e2, e3, e4, e5⟩ := blockIdx4 t
  funext j
  obtain ⟨p, q, rfl⟩ : ∃ (p : Fin 10000) (q : Fin 128), j = ix2 p q := ⟨j 0, j 1, eq_ix2 j⟩
  show k4_pay1 (F := Ideal) (iblk4 V c 0 t) (iblk4 V c 1 t) (ix2 p q) = _
  have h0 : ((cfg4.win 0).blk t).view.emb (ix2 p q)
      = ix2 ((((cfg4.win 2).blk t).view.emb (ix2 p q)) 0) ((((cfg4.win 2).blk t).view.emb (ix2 p q)) 1) := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * q.val = win4_2.index t (1 : Fin 2) * 128 + 1 * q.val; omega
  have h1 : ((cfg4.win 1).blk t).view.emb (ix2 p (0 : Fin 1)) = ix2 ((((cfg4.win 2).blk t).view.emb (ix2 p q)) 0) (0 : Fin 1) := by
    funext a; apply Fin.ext
    match a with
    | ⟨0, _⟩ => show win4_1.index t (0 : Fin 2) * 10000 + 1 * p.val = win4_2.index t (0 : Fin 2) * 10000 + 1 * p.val; omega
    | ⟨1, _⟩ => show win4_1.index t (1 : Fin 2) * 1 + 1 * 0 = 0; omega
  refine (pay4_apply (iblk4 V c 0 t) (iblk4 V c 1 t) p q).trans ?_
  refine congrArg₂ (fun a b : EReal => a * b) ?_ ?_
  · exact congrArg (V c main_v53) h0
  · exact congrArg (V c main_v30) h1

/-- An index of the output array lies in point t's block iff each coordinate lies in the block's range. -/
theorem mem_blk4 (t : Fin cfg4.N) (i : S1650000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v54).slice (win4_2.rect t)).set ↔ _
  rw [View.set_slice_whole, Rect.mem_set_unit]
  exact Iff.rfl

/-- Every row lies in some point's block: row r in point r / 10000's. -/
theorem cover4 (i : S1650000x128.Idx) : ∃ t : Fin cfg4.N, (cfg4.win 2).flush t = true ∧ i ∈ ((cfg4.win 2).blk t).view.set := by
  have hi0 : (i 0).val < 1650000 := (i 0).isLt
  have hi1 : (i 1).val < 128 := (i 1).isLt
  have hN : cfg4.N = 165 := N_4
  let t : Fin cfg4.N := ⟨(i 0).val / 10000, by rw [hN]; omega⟩
  obtain ⟨e0, e1, e2, e3, e4, e5⟩ := blockIdx4 t
  have e4' : win4_2.index t (0 : Fin 2) = (i 0).val / 10000 := e4
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The output array after the launch: the features the region finds, each row scaled by its entry of the norm column. -/
theorem arr4 (c : Dev nD) :
    (dat4 V c).arrAt 2 cfg4.N = scaleRows (N := 1650000) (C := 128) (V c main_v53) (V c main_v30) :=
  (dat4 V c).arrAt_eq_of_cover 2 _ (fun t _ => flushed4 V c t) cover4

end Cert.KernelIdeal.RegionValue

end
-- ==== Proof.Region5.lean ====
/-
  The sixth launch, read as a whole array. Its grid has ten points; point t takes rows 5000·t … 5000·t + 4999 of the
  aggregate and the whole bias row and writes the same rows of the output. With z(q) = agg(p, q) + b(q) and M the maximum
  of row p of z, entry (p, q) of its block is (z(q) − M) − log Σ_r exp (z(r) − M): a row of the block depends on that row
  of the aggregate only, so the ten row blocks, which tile the 50000 rows, give the row-wise log-softmax of the whole
  array.
-/
import proofs.«123378_j41532333752332_1_alg».proof.Proof.Gen.KernelIdeal.Frame
import proofs.«123378_j41532333752332_1_alg».proof.Proof.GcnSpec
import proofs.«123378_j41532333752332_1_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Cert.GcnSpec Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets5 : (![0, 0] : Fin 2 → Nat) = fun _ => 0 := funext fun a => by fin_cases a <;> rfl

/-- The reduced row index p with the column k put back is (p, k). -/
theorem lift_row5 (h : S5000x128.Reduces [1] S5000) (p : Fin 5000) (k : Fin (S5000x128.size 1)) :
    h.lift (ix1 p) k = ix2 p (⟨k.val, k.isLt⟩ : Fin 128) := by
  funext c; apply Fin.ext
  fin_cases c <;> rfl

/-- The maximum over axis 1, folded from −∞, read at row p: the maximum of row p. -/
theorem rowMax5 (v : FVec Ideal S5000x128 .f32) (h : S5000x128.Reduces [1] S5000) (hφ : FKind.Formats .f32)
    (hacc : (0xFF800000#32 : BitVec 32) = FKind.maximumf.neutral .f32 hφ) (p : Fin 5000) :
    multiReduction .maximumf [1] S5000 v 0xFF800000#32 h hφ hacc (ix1 p) = rowMax fun r : Fin 128 => v (ix2 p r) := by
  refine (Ideal.multiReduction_maximumf_single v _ h hφ hacc (ix1 p)).trans ?_
  have hf : (v ∘ h.lift (ix1 p)) = fun k : Fin 128 => v (ix2 p k) := funext fun k => congrArg v (lift_row5 h p k)
  exact congrArg (fun f => Finset.fold max (Ideal.ofBits .f32 0xFF800000#32) f (Finset.univ : Finset (Fin 128))) hf

/-- The sum over axis 1 read at row p: the sum of row p. -/
theorem rowSum5 (v : FVec Ideal S5000x128 .f32) (h : S5000x128.Reduces [1] S5000) (hφ : FKind.Formats .f32)
    (hacc : (0x00000000#32 : BitVec 32) = FKind.add.neutral .f32 hφ) (p : Fin 5000) :
    multiReduction .add [1] S5000 v 0x00000000#32 h hφ hacc (ix1 p) = ∑ r : Fin 128, v (ix2 p r) := by
  refine (Ideal.multiReduction_add_single v _ h hφ hacc (ix1 p)).trans ?_
  exact Finset.sum_congr rfl fun k _ => congrArg v (lift_row5 h p k)

/-- A block with each row's maximum M taken off, and then the logarithm of the row's sum of exponentials taken off: at
    (p, q), with z the row p of the block, this is (z(q) − M) − log Σ_r exp (z(r) − M). -/
theorem logSoftmaxRows5 (v : FVec Ideal S5000x128 .f32) (h : S5000x128.Reduces [1] S5000) (hφ : FKind.Formats .f32)
    (hmax : (0xFF800000#32 : BitVec 32) = FKind.maximumf.neutral .f32 hφ)
    (hadd : (0x00000000#32 : BitVec 32) = FKind.add.neutral .f32 hφ)
    (hsc : S5000.ShapeCasts S5000x1) (hbc : S5000x1.Broadcasts S5000x128) (p : Fin 5000) (q : Fin 128) :
    subf (subf v (broadcastTo S5000x128 (shapeCast S5000x1 (multiReduction .maximumf [1] S5000 v 0xFF800000#32 h hφ hmax) hsc) hbc))
        (broadcastTo S5000x128 (log (shapeCast S5000x1 (multiReduction .add [1] S5000
          (exp (subf v (broadcastTo S5000x128 (shapeCast S5000x1 (multiReduction .maximumf [1] S5000 v 0xFF800000#32 h hφ hmax) hsc) hbc)))
          0x00000000#32 h hφ hadd) hsc)) hbc) (ix2 p q)
      = logSoftmaxAt (fun r : Fin 128 => v (ix2 p r)) q := by
  have hM : ∀ r : Fin 128, subf v (broadcastTo S5000x128 (shapeCast S5000x1 (multiReduction .maximumf [1] S5000 v 0xFF800000#32 h hφ hmax) hsc) hbc) (ix2 p r)
      = v (ix2 p r) - rowMax fun r : Fin 128 => v (ix2 p r) := fun r => by
    rw [subf_apply, Cert.LibKeepdims.broadcastTo_a1_ab_apply, Cert.LibKeepdims.shapeCast_a_a1_apply, rowMax5]
  rw [subf_apply, hM q, Cert.LibKeepdims.broadcastTo_a1_ab_apply]
  show _ - Ideal.log (shapeCast S5000x1 _ hsc (ix2 p (0 : Fin 1))) = _
  rw [Cert.LibKeepdims.shapeCast_a_a1_apply, rowSum5]
  show _ = (_ - _) - Ideal.log (∑ r : Fin 128, Ideal.exp (v (ix2 p r) - rowMax fun r : Fin 128 => v (ix2 p r)))
  refine congrArg (fun s : EReal => _ - Ideal.log s) (Finset.sum_congr rfl fun r _ => ?_)
  show Ideal.exp _ = _
  rw [hM r]

/-- The body's stored value at (p, q): with z the row p of the block plus the bias row, the log-softmax of z at q. -/
theorem pay5_apply (x0 : Vec Ideal S5000x128 .f32) (x1 : Vec Ideal S1x128 .f32) (p : Fin 5000) (q : Fin 128) :
    k5_pay1 (F := Ideal) x0 x1 (ix2 p q)
      = logSoftmaxAt (fun r : Fin 128 => x0 (ix2 p r) + x1 (ix2 (0 : Fin 1) r)) q := by
  unfold k5_pay1
  refine (logSoftmaxRows5 _ _ _ _ _ _ _ p q).trans ?_
  refine congrArg (fun z : Fin 128 → EReal => logSoftmaxAt z q) (funext fun r => ?_)
  rw [addf_apply, shapeCast_self, shapeCast_self, broadcastTo_1b_ab_apply]

/-- The index maps over the grid: the aggregate's and the output's row block is the point's number; every other block
    index is zero. -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is its block of the row-wise log-softmax of the aggregate plus the bias row, over the arrays
    the region finds: row p of the block reads row 5000·t + p of the aggregate, whole, and the whole bias row. -/
theorem flushed5 (c : Dev nD) (t : Fin cfg5.N) :
    (dat5 V c).flushed 2 t
      = ((cfg5.win 2).blk t).view.read (Elt Ideal)
          (biasLogSoftmax (N := 50000) (C := 128) (V c main_v57) (V c main_v32)) := by
  show (cfg5.win 2).cut (grid5.coords t) ((dat5 V c).after 2 t) = _
  rw [after5_2]
  unfold out5_2
  rw [View.canon_unit_zero zeroOffsets5]
  simp only [View.ld_unit_zero (S := S5000x128) zeroOffsets5, View.ld_unit_zero (S := S1x128) zeroOffsets5]
  obtain ⟨e0, e1, e2, e3, e4, e5⟩ := blockIdx5 t
  funext j
  obtain ⟨p, q, rfl⟩ : ∃ (p : Fin 5000) (q : Fin 128), j = ix2 p q := ⟨j 0, j 1, eq_ix2 j⟩
  show k5_pay1 (F := Ideal) (iblk5 V c 0 t) (iblk5 V c 1 t) (ix2 p q) = _
  have h0 : ∀ r : Fin 128, ((cfg5.win 0).blk t).view.emb (ix2 p r)
      = ix2 ((((cfg5.win 2).blk t).view.emb (ix2 p q)) 0) r := fun r => by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * r.val = r.val; omega
  have h1 : ∀ r : Fin 128, ((cfg5.win 1).blk t).view.emb (ix2 (0 : Fin 1) r) = ix2 (0 : Fin 1) r := fun r => by
    funext a; apply Fin.ext
    match a with
    | ⟨0, _⟩ => show win5_1.index t (0 : Fin 2) * 1 + 1 * 0 = 0; omega
    | ⟨1, _⟩ => show win5_1.index t (1 : Fin 2) * 128 + 1 * r.val = r.val; omega
  have hq : (((cfg5.win 2).blk t).view.emb (ix2 p q)) 1 = q := by
    apply Fin.ext
    show win5_2.index t (1 : Fin 2) * 128 + 1 * q.val = q.val; omega
  refine (pay5_apply (iblk5 V c 0 t) (iblk5 V c 1 t) p q).trans ?_
  show logSoftmaxAt _ q
    = logSoftmaxAt (biased (N := 50000) (C := 128) (V c main_v57) (V c main_v32) ((((cfg5.win 2).blk t).view.emb (ix2 p q)) 0))
        ((((cfg5.win 2).blk t).view.emb (ix2 p q)) 1)
  refine congrArg₂ (fun (z : Fin 128 → EReal) (q' : Fin 128) => logSoftmaxAt z q') (funext fun r => ?_) hq.symm
  refine congrArg₂ (fun a b : EReal => a + b) ?_ ?_
  · exact congrArg (V c main_v57) (h0 r)
  · exact congrArg (V c main_v32) (h1 r)

/-- An index of the output array lies in point t's block iff each coordinate lies in the block's range. -/
theorem mem_blk5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v58).slice (win5_2.rect t)).set ↔ _
  rw [View.set_slice_whole, Rect.mem_set_unit]
  exact Iff.rfl

/-- Every row lies in some point's block: row r in point r / 5000's. -/
theorem cover5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨e0, e1, e2, e3, e4, e5⟩ := blockIdx5 t
  have e4' : win5_2.index t (0 : Fin 2) = (i 0).val / 5000 := e4
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array after the launch: the aggregate plus the bias row, then the row-wise log-softmax. -/
theorem arr5 (c : Dev nD) :
    (dat5 V c).arrAt 2 cfg5.N = biasLogSoftmax (N := 50000) (C := 128) (V c main_v57) (V c main_v32) :=
  (dat5 V c).arrAt_eq_of_cover 2 _ (fun t _ => flushed5 V c t) cover5

end Cert.KernelIdeal.RegionValue

end
-- ==== Proof.FoldB.lean ====
/-
  The kernel program's buffers followed through its run, second half: from the first layer's aggregate to the result.
  The bias and rectifier, the second transform, the gather, the edge scaling, the scatter-add and the final bias and
  log-softmax are each the reference's stage of the same operands; the result buffer ends at the reference's last stage.
-/
import proofs.«123378_j41532333752332_1_alg».proof.Proof.Gen.KernelIdeal.Frame
import proofs.«123378_j41532333752332_1_alg».proof.Proof.FoldA
import proofs.«123378_j41532333752332_1_alg».proof.Proof.Region2
import proofs.«123378_j41532333752332_1_alg».proof.Proof.Region3
import proofs.«123378_j41532333752332_1_alg».proof.Proof.Region4
import proofs.«123378_j41532333752332_1_alg».proof.Proof.Region5
import proofs.«123378_j41532333752332_1_alg».proof.Proof.RefStages
import proofs.«123378_j41532333752332_1_alg».proof.Proof.LibHostChunks
import Idealize.ShloMosaic.Lib.StableHlo.Run

set_option maxRecDepth 16384

noncomputable section

namespace Cert.KernelIdeal.Fold

open Cert.KernelIdeal Cert.KernelIdeal.Gen Cert.KernelIdeal.RegionValue Cert.GcnSpec Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the third launch: the first layer's output

The launch writes one array, the aggregate plus the bias row, rectified; every other buffer is as it was. -/

/-- The first layer's output: the reference's rectified stage. -/
theorem W8_v45 : W8 m ρ c (Proc.devRef .tc main_v45)
    = val_main_v47 (F := Ideal) (m ((c : Thread nD τ).loc main_arg0)) (m ((c : Thread nD τ).loc main_arg1)) (m ((c : Thread nD τ).loc main_arg2)) (m ((c : Thread nD τ).loc main_arg3)) := by
  refine (W8_arr m ρ c 2).trans ((arr2 (V7 m ρ) c).trans ?_)
  rw [Cert.ReferenceIdeal.Stages.v47_eq _ _ _ _ shapeCasts_S64_S1x64]
  exact congrArg₂ (biasRelu (N := 50000) (C := 64)) (W7_v44 m ρ c) (W7_v31 m ρ c)

theorem W8_v3 : W8 m ρ c (Proc.devRef .tc main_v3) = val_main_v3 (F := Ideal) (m ((c : Thread nD τ).loc main_arg1)) :=
  (W8_of_ne m ρ c main_v3 (by decide)).trans (W7_v3 m ρ c)

theorem W8_v6 : W8 m ρ c (Proc.devRef .tc main_v6) = val_main_v6 (F := Ideal) (m ((c : Thread nD τ).loc main_arg1)) :=
  (W8_of_ne m ρ c main_v6 (by decide)).trans (W7_v6 m ρ c)

theorem W8_v30 : W8 m ρ c (Proc.devRef .tc main_v30)
    = shapeCast S1650000x1 (val_main_v29 (F := Ideal) (m ((c : Thread nD τ).loc main_arg1))) shapeCasts_S1650000_S1650000x1 :=
  (W8_of_ne m ρ c main_v30 (by decide)).trans (W7_v30 m ρ c)

theorem W8_v32 : W8 m ρ c (Proc.devRef .tc main_v32) = shapeCast S1x128 (m ((c : Thread nD τ).loc main_arg5)) shapeCasts_S128_S1x128 :=
  (W8_of_ne m ρ c main_v32 (by decide)).trans (W7_v32 m ρ c)

theorem W8_arg4 : W8 m ρ c (Proc.devRef .tc main_arg4) = (m ((c : Thread nD τ).loc main_arg4)) :=
  (W8_of_ne m ρ c main_arg4 (by decide)).trans (W7_arg4 m ρ c)

/-! ## After the fourth launch: the second layer's transform

The launch enters where the third one left; its output is the product of the first layer's output with the second
layer's weights. -/

/-- The second transform: the reference's product stage. -/
theorem W9_v46 : W9 m ρ c (Proc.devRef .tc main_v46)
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W9_arr m ρ c 2).trans ((arr3 (V8 m ρ) c).trans ?_)
  rw [Cert.ReferenceIdeal.Stages.v48_eq]
  exact congrArg₂ (matProd (N := 50000) (K := 64) (C := 128)) (W8_v45 m ρ c) (W8_arg4 m ρ c)

theorem W9_v3 : W9 m ρ c (Proc.devRef .tc main_v3) = val_main_v3 (F := Ideal) (m ((c : Thread nD τ).loc main_arg1)) :=
  (W9_of_ne m ρ c main_v3 (by decide)).trans (W8_v3 m ρ c)

theorem W9_v6 : W9 m ρ c (Proc.devRef .tc main_v6) = val_main_v6 (F := Ideal) (m ((c : Thread nD τ).loc main_arg1)) :=
  (W9_of_ne m ρ c main_v6 (by decide)).trans (W8_v6 m ρ c)

theorem W9_v30 : W9 m ρ c (Proc.devRef .tc main_v30)
    = shapeCast S1650000x1 (val_main_v29 (F := Ideal) (m ((c : Thread nD τ).loc main_arg1))) shapeCasts_S1650000_S1650000x1 :=
  (W9_of_ne m ρ c main_v30 (by decide)).trans (W8_v30 m ρ c)

theorem W9_v32 : W9 m ρ c (Proc.devRef .tc main_v32) = shapeCast S1x128 (m ((c : Thread nD τ).loc main_arg5)) shapeCasts_S128_S1x128 :=
  (W9_of_ne m ρ c main_v32 (by decide)).trans (W8_v32 m ρ c)

/-! ## After the stretch that gathers the transformed rows

The host wraps the negative entries of the source list and gathers the rows of the second transform at it: the same
operations, on the same operands, as the reference's gather stage. -/

/-- The gathered rows of the second transform. -/
theorem W10_v53 : W10 m ρ c (Proc.devRef .tc main_v53)
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps4 (W9 m ρ c) (Proc.devRef .tc main_v53) = _
  generalize hV : W9 m ρ c = V
  after_results
  subst hV
  rw [W9_v46 m ρ c, W9_v3 m ρ c]
  rfl

theorem W10_v6 : W10 m ρ c (Proc.devRef .tc main_v6) = val_main_v6 (F := Ideal) (m ((c : Thread nD τ).loc main_arg1)) :=
  (show W10 m ρ c (Proc.devRef .tc main_v6) = W9 m ρ c (Proc.devRef .tc main_v6) by keeps_buffer hostOps4).trans (W9_v6 m ρ c)

theorem W10_v30 : W10 m ρ c (Proc.devRef .tc main_v30)
    = shapeCast S1650000x1 (val_main_v29 (F := Ideal) (m ((c : Thread nD τ).loc main_arg1))) shapeCasts_S1650000_S1650000x1 :=
  (show W10 m ρ c (Proc.devRef .tc main_v30) = W9 m ρ c (Proc.devRef .tc main_v30) by keeps_buffer hostOps4).trans (W9_v30 m ρ c)

theorem W10_v32 : W10 m ρ c (Proc.devRef .tc main_v32) = shapeCast S1x128 (m ((c : Thread nD τ).loc main_arg5)) shapeCasts_S128_S1x128 :=
  (show W10 m ρ c (Proc.devRef .tc main_v32) = W9 m ρ c (Proc.devRef .tc main_v32) by keeps_buffer hostOps4).trans (W9_v32 m ρ c)

/-! ## After the fifth launch: the second layer's messages

Each gathered row scaled by its edge's norm. -/

/-- The second layer's messages: the reference's scaled stage. -/
theorem W11_v54 : W11 m ρ c (Proc.devRef .tc main_v54)
    = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W11_arr m ρ c 2).trans ((arr4 (V10 m ρ) c).trans ?_)
  rw [Cert.ReferenceIdeal.Stages.v58_eq _ _ _ _ _ shapeCasts_S1650000_S1650000x1]
  exact congrArg₂ (scaleRows (N := 1650000) (C := 128)) (W10_v53 m ρ c) (W10_v30 m ρ c)

theorem W11_v6 : W11 m ρ c (Proc.devRef .tc main_v6) = val_main_v6 (F := Ideal) (m ((c : Thread nD τ).loc main_arg1)) :=
  (W11_of_ne m ρ c main_v6 (by decide)).trans (W10_v6 m ρ c)

theorem W11_v32 : W11 m ρ c (Proc.devRef .tc main_v32) = shapeCast S1x128 (m ((c : Thread nD τ).loc main_arg5)) shapeCasts_S128_S1x128 :=
  (W11_of_ne m ρ c main_v32 (by decide)).trans (W10_v32 m ρ c)

/-! ## After the stretch that adds the messages up at their targets

The host scatter-adds the messages into a zero array at the target list: the reference's second aggregate. -/

/-- The second layer's aggregate. -/
theorem W12_v57 : W12 m ρ c (Proc.devRef .tc main_v57)
    = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps5 (W11 m ρ c) (Proc.devRef .tc main_v57) = _
  generalize hV : W11 m ρ c = V
  after_results
  subst hV
  rw [W11_v54 m ρ c, W11_v6 m ρ c]
  rfl

theorem W12_v32 : W12 m ρ c (Proc.devRef .tc main_v32) = shapeCast S1x128 (m ((c : Thread nD τ).loc main_arg5)) shapeCasts_S128_S1x128 :=
  (show W12 m ρ c (Proc.devRef .tc main_v32) = W11 m ρ c (Proc.devRef .tc main_v32) by keeps_buffer hostOps5).trans (W11_v32 m ρ c)

/-! ## After the last launch: the result -/

/-- The result buffer at the last boundary is the reference's last stage of the launch arguments. -/
theorem W13_out : W13 m ρ c (Proc.devRef .tc main_v58)
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the launch's output array is the aggregate plus the bias row followed by the row-wise log-softmax
  refine (W13_arr m ρ c 2).trans ((arr5 (V12 m ρ) c).trans ?_)
  rw [Cert.ReferenceIdeal.Stages.v65_eq _ _ _ _ _ _ shapeCasts_S128_S1x128]
  exact congrArg₂ (biasLogSoftmax (N := 50000) (C := 128)) (W12_v57 m ρ c) (W12_v32 m ρ c)

end Cert.KernelIdeal.Fold

end
-- ==== Proof.RefRunA.lean ====
/-
  The reference program's run, read stretch by stretch, first half. Its @main is one line of 98 host operations; the
  buffer contents after its first k operations, from the launch memory, are followed nine or so operations at a time,
  and each buffer still needed later is named by its stage, a function of the launch arguments. This half goes as far
  as the first layer's output (after 63 operations): the edge lists with self loops, the degrees' inverse square
  roots, the edge norm, x·W1, the gathered and scaled messages, their scatter-add, the bias and the rectifier.
-/
import proofs.«123378_j41532333752332_1_alg».proof.Proof.RefRead
import proofs.«123378_j41532333752332_1_alg».proof.Proof.LibHostChunks
import Idealize.ShloMosaic.Lib.StableHlo.Run

set_option maxRecDepth 16384

noncomputable section

namespace Cert.ReferenceIdeal.RunStages

open Cert.ReferenceIdeal Cert.ReferenceIdeal.Gen Cert.ReferenceIdeal.ValueP Cert.ReferenceIdeal.ReadP Cert.HostChunks
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Core c's buffer contents after the first k operations of @main, from the launch memory. -/
def B (k : ℕ) : Valuation τ sig (Elt Ideal) :=
  StableHlo.after ((ops (F := Ideal)).take k) (launchContents m c)

/-- From one boundary to the next: the next j operations run from the contents after the first k. -/
theorem B_step (k j : ℕ) : B m c (k + j) = StableHlo.after (((ops (F := Ideal)).drop k).take j) (B m c k) :=
  after_take_add _ _ k j

/-- Before any operation the buffers hold the launch memory. -/
theorem B_zero (b : Ref sig .tc) : B m c 0 (Proc.devRef .tc b) = m ((c.tc : Thread nD τ).loc b) := rfl

/-! ## Operations 1 … 9: the source and target lists with the self loops appended, and the ones that are summed into the degrees -/
theorem B9_v3 : B m c 9 (Proc.devRef .tc main_v3) = val_main_v3 (F := Ideal) (m ((c.tc : Thread nD τ).loc main_arg1)) := by
  show B m c (0 + 9) _ = _
  rw [B_step m c 0 9]
  generalize hV : B m c 0 = V
  simp only [ops, List.drop_succ_cons, List.drop_zero, List.take_succ_cons, List.take_zero]
  after_results
  subst hV
  rfl

theorem B9_v6 : B m c 9 (Proc.devRef .tc main_v6) = val_main_v6 (F := Ideal) (m ((c.tc : Thread nD τ).loc main_arg1)) := by
  show B m c (0 + 9) _ = _
  rw [B_step m c 0 9]
  generalize hV : B m c 0 = V
  simp only [ops, List.drop_succ_cons, List.drop_zero, List.take_succ_cons, List.take_zero]
  after_results
  subst hV
  rfl

theorem B9_v7 : B m c 9 (Proc.devRef .tc main_v7) = val_main_v7 (F := Ideal) := by
  show B m c (0 + 9) _ = _
  rw [B_step m c 0 9]
  generalize hV : B m c 0 = V
  simp only [ops, List.drop_succ_cons, List.drop_zero, List.take_succ_cons, List.take_zero]
  after_results
  subst hV
  rfl

/-! ## Operations 10 … 18: the degrees (the ones added up at the targets), the test that a degree is positive, and the degrees' inverse square roots -/
theorem B18_v12 : B m c 18 (Proc.devRef .tc main_v12) = val_main_v12 (F := Ideal) (m ((c.tc : Thread nD τ).loc main_arg1)) := by
  show B m c (9 + 9) _ = _
  rw [B_step m c 9 9]
  generalize hV : B m c 9 = V
  simp only [ops, List.drop_succ_cons, List.drop_zero, List.take_succ_cons, List.take_zero]
  after_results
  subst hV
  rw [B9_v6 m c, B9_v7 m c]
  rfl

theorem B18_v13 : B m c 18 (Proc.devRef .tc main_v13) = val_main_v13 (F := Ideal) (m ((c.tc : Thread nD τ).loc main_arg1)) := by
  show B m c (9 + 9) _ = _
  rw [B_step m c 9 9]
  generalize hV : B m c 9 = V
  simp only [ops, List.drop_succ_cons, List.drop_zero, List.take_succ_cons, List.take_zero]
  after_results
  subst hV
  rw [B9_v6 m c, B9_v7 m c]
  rfl

theorem B18_cst_2 : B m c 18 (Proc.devRef .tc main_cst_2) = val_main_cst_2 (F := Ideal) := by
  show B m c (9 + 9) _ = _
  rw [B_step m c 9 9]
  generalize hV : B m c 9 = V
  simp only [ops, List.drop_succ_cons, List.drop_zero, List.take_succ_cons, List.take_zero]
  after_results
  subst hV
  rfl

theorem B18_v3 : B m c 18 (Proc.devRef .tc main_v3) = val_main_v3 (F := Ideal) (m ((c.tc : Thread nD τ).loc main_arg1)) :=
  (show B m c (9 + 9) (Proc.devRef .tc main_v3) = B m c 9 (Proc.devRef .tc main_v3) by
    rw [B_step m c 9 9]; keeps_buffer ops).trans (B9_v3 m c)

theorem B18_v6 : B m c 18 (Proc.devRef .tc main_v6) = val_main_v6 (F := Ideal) (m ((c.tc : Thread nD τ).loc main_arg1)) :=
  (show B m c (9 + 9) (Proc.devRef .tc main_v6) = B m c 9 (Proc.devRef .tc main_v6) by
    rw [B_step m c 9 9]; keeps_buffer ops).trans (B9_v6 m c)

/-! ## Operations 19 … 21: the inverse square root of the degree where the degree is positive, zero elsewhere -/
theorem B21_v14 : B m c 21 (Proc.devRef .tc main_v14) = val_main_v14 (F := Ideal) (m ((c.tc : Thread nD τ).loc main_arg1)) := by
  show B m c (18 + 3) _ = _
  rw [B_step m c 18 3]
  generalize hV : B m c 18 = V
  simp only [ops, List.drop_succ_cons, List.drop_zero, List.take_succ_cons, List.take_zero]
  after_results
  simp only [TRef.ofBuf, TRef.toBuf, cast_eq]
  subst hV
  rw [B18_v12 m c, B18_v13 m c, B18_cst_2 m c]
  rfl

theorem B21_v3 : B m c 21 (Proc.devRef .tc main_v3) = val_main_v3 (F := Ideal) (m ((c.tc : Thread nD τ).loc main_arg1)) :=
  (show B m c (18 + 3) (Proc.devRef .tc main_v3) = B m c 18 (Proc.devRef .tc main_v3) by
    rw [B_step m c 18 3]; keeps_buffer ops).trans (B18_v3 m c)

theorem B21_v6 : B m c 21 (Proc.devRef .tc main_v6) = val_main_v6 (F := Ideal) (m ((c.tc : Thread nD τ).loc main_arg1)) :=
  (show B m c (18 + 3) (Proc.devRef .tc main_v6) = B m c 18 (Proc.devRef .tc main_v6) by
    rw [B_step m c 18 3]; keeps_buffer ops).trans (B18_v6 m c)

/-! ## Operations 22 … 30: that factor gathered at the sources (a negative index wrapped by the number of nodes) -/
theorem B30_v21 : B m c 30 (Proc.devRef .tc main_v21) = val_main_v21 (F := Ideal) (m ((c.tc : Thread nD τ).loc main_arg1)) := by
  show B m c (21 + 9) _ = _
  rw [B_step m c 21 9]
  generalize hV : B m c 21 = V
  simp only [ops, List.drop_succ_cons, List.drop_zero, List.take_succ_cons, List.take_zero]
  after_results
  subst hV
  rw [B21_v14 m c, B21_v3 m c]
  rfl

theorem B30_v3 : B m c 30 (Proc.devRef .tc main_v3) = val_main_v3 (F := Ideal) (m ((c.tc : Thread nD τ).loc main_arg1)) :=
  (show B m c (21 + 9) (Proc.devRef .tc main_v3) = B m c 21 (Proc.devRef .tc main_v3) by
    rw [B_step m c 21 9]; keeps_buffer ops).trans (B21_v3 m c)

theorem B30_v6 : B m c 30 (Proc.devRef .tc main_v6) = val_main_v6 (F := Ideal) (m ((c.tc : Thread nD τ).loc main_arg1)) :=
  (show B m c (21 + 9) (Proc.devRef .tc main_v6) = B m c 21 (Proc.devRef .tc main_v6) by
    rw [B_step m c 21 9]; keeps_buffer ops).trans (B21_v6 m c)

theorem B30_v14 : B m c 30 (Proc.devRef .tc main_v14) = val_main_v14 (F := Ideal) (m ((c.tc : Thread nD τ).loc main_arg1)) :=
  (show B m c (21 + 9) (Proc.devRef .tc main_v14) = B m c 21 (Proc.devRef .tc main_v14) by
    rw [B_step m c 21 9]; keeps_buffer ops).trans (B21_v14 m c)

/-! ## Operations 31 … 40: the factor gathered at the targets, and the edge norm, the product of the two gathers -/
theorem B40_v29 : B m c 40 (Proc.devRef .tc main_v29) = val_main_v29 (F := Ideal) (m ((c.tc : Thread nD τ).loc main_arg1)) := by
  show B m c (30 + 10) _ = _
  rw [B_step m c 30 10]
  generalize hV : B m c 30 = V
  simp only [ops, List.drop_succ_cons, List.drop_zero, List.take_succ_cons, List.take_zero]
  after_results
  subst hV
  rw [B30_v21 m c, B30_v14 m c, B30_v6 m c]
  rfl

theorem B40_v3 : B m c 40 (Proc.devRef .tc main_v3) = val_main_v3 (F := Ideal) (m ((c.tc : Thread nD τ).loc main_arg1)) :=
  (show B m c (30 + 10) (Proc.devRef .tc main_v3) = B m c 30 (Proc.devRef .tc main_v3) by
    rw [B_step m c 30 10]; keeps_buffer ops).trans (B30_v3 m c)

theorem B40_v6 : B m c 40 (Proc.devRef .tc main_v6) = val_main_v6 (F := Ideal) (m ((c.tc : Thread nD τ).loc main_arg1)) :=
  (show B m c (30 + 10) (Proc.devRef .tc main_v6) = B m c 30 (Proc.devRef .tc main_v6) by
    rw [B_step m c 30 10]; keeps_buffer ops).trans (B30_v6 m c)

/-- The features and the first layer's weights are still the launch arguments. -/
theorem B40_arg0 : B m c 40 (Proc.devRef .tc main_arg0) = (m ((c.tc : Thread nD τ).loc main_arg0)) :=
  (show StableHlo.after ((ops (F := Ideal)).take 40) (launchContents m c) (Proc.devRef .tc main_arg0) = launchContents m c (Proc.devRef .tc main_arg0) by
    keeps_buffer ops).trans (B_zero m c main_arg0)

theorem B40_arg2 : B m c 40 (Proc.devRef .tc main_arg2) = (m ((c.tc : Thread nD τ).loc main_arg2)) :=
  (show StableHlo.after ((ops (F := Ideal)).take 40) (launchContents m c) (Proc.devRef .tc main_arg2) = launchContents m c (Proc.devRef .tc main_arg2) by
    keeps_buffer ops).trans (B_zero m c main_arg2)

/-! ## Operations 41 and 42: x·W1, and the edge norm as a column -/
theorem B42_v30 : B m c 42 (Proc.devRef .tc main_v30) = val_main_v30 (F := Ideal) (m ((c.tc : Thread nD τ).loc main_arg0)) (m ((c.tc : Thread nD τ).loc main_arg2)) := by
  show B m c (40 + 2) _ = _
  rw [B_step m c 40 2]
  generalize hV : B m c 40 = V
  simp only [ops, List.drop_succ_cons, List.drop_zero, List.take_succ_cons, List.take_zero]
  after_results
  subst hV
  rw [B40_arg0 m c, B40_arg2 m c]
  rfl

theorem B42_v31 : B m c 42 (Proc.devRef .tc main_v31) = val_main_v31 (F := Ideal) (m ((c.tc : Thread nD τ).loc main_arg1)) := by
  show B m c (40 + 2) _ = _
  rw [B_step m c 40 2]
  generalize hV : B m c 40 = V
  simp only [ops, List.drop_succ_cons, List.drop_zero, List.take_succ_cons, List.take_zero]
  after_results
  subst hV
  rw [B40_v29 m c]
  rfl

theorem B42_v3 : B m c 42 (Proc.devRef .tc main_v3) = val_main_v3 (F := Ideal) (m ((c.tc : Thread nD τ).loc main_arg1)) :=
  (show B m c (40 + 2) (Proc.devRef .tc main_v3) = B m c 40 (Proc.devRef .tc main_v3) by
    rw [B_step m c 40 2]; keeps_buffer ops).trans (B40_v3 m c)

theorem B42_v6 : B m c 42 (Proc.devRef .tc main_v6) = val_main_v6 (F := Ideal) (m ((c.tc : Thread nD τ).loc main_arg1)) :=
  (show B m c (40 + 2) (Proc.devRef .tc main_v6) = B m c 40 (Proc.devRef .tc main_v6) by
    rw [B_step m c 40 2]; keeps_buffer ops).trans (B40_v6 m c)

theorem B42_v29 : B m c 42 (Proc.devRef .tc main_v29) = val_main_v29 (F := Ideal) (m ((c.tc : Thread nD τ).loc main_arg1)) :=
  (show B m c (40 + 2) (Proc.devRef .tc main_v29) = B m c 40 (Proc.devRef .tc main_v29) by
    rw [B_step m c 40 2]; keeps_buffer ops).trans (B40_v29 m c)

/-! ## Operations 43 … 51: the rows of x·W1 gathered at the sources -/
theorem B51_v38 : B m c 51 (Proc.devRef .tc main_v38) = val_main_v38 (F := Ideal) (m ((c.tc : Thread nD τ).loc main_arg0)) (m ((c.tc : Thread nD τ).loc main_arg1)) (m ((c.tc : Thread nD τ).loc main_arg2)) := by
  show B m c (42 + 9) _ = _
  rw [B_step m c 42 9]
  generalize hV : B m c 42 = V
  simp only [ops, List.drop_succ_cons, List.drop_zero, List.take_succ_cons, List.take_zero]
  after_results
  subst hV
  rw [B42_v30 m c, B42_v3 m c]
  rfl

theorem B51_v3 : B m c 51 (Proc.devRef .tc main_v3) = val_main_v3 (F := Ideal) (m ((c.tc : Thread nD τ).loc main_arg1)) :=
  (show B m c (42 + 9) (Proc.devRef .tc main_v3) = B m c 42 (Proc.devRef .tc main_v3) by
    rw [B_step m c 42 9]; keeps_buffer ops).trans (B42_v3 m c)

theorem B51_v6 : B m c 51 (Proc.devRef .tc main_v6) = val_main_v6 (F := Ideal) (m ((c.tc : Thread nD τ).loc main_arg1)) :=
  (show B m c (42 + 9) (Proc.devRef .tc main_v6) = B m c 42 (Proc.devRef .tc main_v6) by
    rw [B_step m c 42 9]; keeps_buffer ops).trans (B42_v6 m c)

theorem B51_v29 : B m c 51 (Proc.devRef .tc main_v29) = val_main_v29 (F := Ideal) (m ((c.tc : Thread nD τ).loc main_arg1)) :=
  (show B m c (42 + 9) (Proc.devRef .tc main_v29) = B m c 42 (Proc.devRef .tc main_v29) by
    rw [B_step m c 42 9]; keeps_buffer ops).trans (B42_v29 m c)

theorem B51_v31 : B m c 51 (Proc.devRef .tc main_v31) = val_main_v31 (F := Ideal) (m ((c.tc : Thread nD τ).loc main_arg1)) :=
  (show B m c (42 + 9) (Proc.devRef .tc main_v31) = B m c 42 (Proc.devRef .tc main_v31) by
    rw [B_step m c 42 9]; keeps_buffer ops).trans (B42_v31 m c)

/-- The first layer's bias is still the launch argument. -/
theorem B51_arg3 : B m c 51 (Proc.devRef .tc main_arg3) = (m ((c.tc : Thread nD τ).loc main_arg3)) :=
  (show StableHlo.after ((ops (F := Ideal)).take 51) (launchContents m c) (Proc.devRef .tc main_arg3) = launchContents m c (Proc.devRef .tc main_arg3) by
    keeps_buffer ops).trans (B_zero m c main_arg3)

/-! ## Operations 52 … 60: the gathered rows scaled by the edge norm, added up at the targets, and the bias added -/
theorem B60_v46 : B m c 60 (Proc.devRef .tc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) := by
  show B m c (51 + 9) _ = _
  rw [B_step m c 51 9]
  generalize hV : B m c 51 = V
  simp only [ops, List.drop_succ_cons, List.drop_zero, List.take_succ_cons, List.take_zero]
  after_results
  subst hV
  rw [B51_v6 m c, B51_v31 m c, B51_v38 m c, B51_arg3 m c]
  rfl

theorem B60_v3 : B m c 60 (Proc.devRef .tc main_v3) = val_main_v3 (F := Ideal) (m ((c.tc : Thread nD τ).loc main_arg1)) :=
  (show B m c (51 + 9) (Proc.devRef .tc main_v3) = B m c 51 (Proc.devRef .tc main_v3) by
    rw [B_step m c 51 9]; keeps_buffer ops).trans (B51_v3 m c)

theorem B60_v6 : B m c 60 (Proc.devRef .tc main_v6) = val_main_v6 (F := Ideal) (m ((c.tc : Thread nD τ).loc main_arg1)) :=
  (show B m c (51 + 9) (Proc.devRef .tc main_v6) = B m c 51 (Proc.devRef .tc main_v6) by
    rw [B_step m c 51 9]; keeps_buffer ops).trans (B51_v6 m c)

theorem B60_v29 : B m c 60 (Proc.devRef .tc main_v29) = val_main_v29 (F := Ideal) (m ((c.tc : Thread nD τ).loc main_arg1)) :=
  (show B m c (51 + 9) (Proc.devRef .tc main_v29) = B m c 51 (Proc.devRef .tc main_v29) by
    rw [B_step m c 51 9]; keeps_buffer ops).trans (B51_v29 m c)

/-! ## What the first half hands on: the buffers still needed after 63 operations (operations 61 … 63 are the rectifier) -/
/-- The first layer's output. -/
theorem B63_v47 : B m c 63 (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  show B m c (60 + 3) _ = _
  rw [B_step m c 60 3]
  generalize hV : B m c 60 = V
  simp only [ops, List.drop_succ_cons, List.drop_zero, List.take_succ_cons, List.take_zero]
  after_results
  simp only [TRef.ofBuf, TRef.toBuf, cast_eq]
  subst hV
  rw [B60_v46 m c]
  rfl

/-- The edge norm. -/
theorem B63_v29 : B m c 63 (Proc.devRef .tc main_v29) = val_main_v29 (F := Ideal) (m ((c.tc : Thread nD τ).loc main_arg1)) :=
  (show B m c (60 + 3) (Proc.devRef .tc main_v29) = B m c 60 (Proc.devRef .tc main_v29) by
    rw [B_step m c 60 3]; keeps_buffer ops).trans (B60_v29 m c)

/-- The source list with self loops. -/
theorem B63_v3 : B m c 63 (Proc.devRef .tc main_v3) = val_main_v3 (F := Ideal) (m ((c.tc : Thread nD τ).loc main_arg1)) :=
  (show B m c (60 + 3) (Proc.devRef .tc main_v3) = B m c 60 (Proc.devRef .tc main_v3) by
    rw [B_step m c 60 3]; keeps_buffer ops).trans (B60_v3 m c)

/-- The target list with self loops. -/
theorem B63_v6 : B m c 63 (Proc.devRef .tc main_v6) = val_main_v6 (F := Ideal) (m ((c.tc : Thread nD τ).loc main_arg1)) :=
  (show B m c (60 + 3) (Proc.devRef .tc main_v6) = B m c 60 (Proc.devRef .tc main_v6) by
    rw [B_step m c 60 3]; keeps_buffer ops).trans (B60_v6 m c)

/-- The second layer's weights and bias are still the launch arguments. -/
theorem B63_arg4 : B m c 63 (Proc.devRef .tc main_arg4) = (m ((c.tc : Thread nD τ).loc main_arg4)) :=
  (show StableHlo.after ((ops (F := Ideal)).take 63) (launchContents m c) (Proc.devRef .tc main_arg4) = launchContents m c (Proc.devRef .tc main_arg4) by
    keeps_buffer ops).trans (B_zero m c main_arg4)

theorem B63_arg5 : B m c 63 (Proc.devRef .tc main_arg5) = (m ((c.tc : Thread nD τ).loc main_arg5)) :=
  (show StableHlo.after ((ops (F := Ideal)).take 63) (launchContents m c) (Proc.devRef .tc main_arg5) = launchContents m c (Proc.devRef .tc main_arg5) by
    keeps_buffer ops).trans (B_zero m c main_arg5)

end Cert.ReferenceIdeal.RunStages

end
-- ==== Proof.RefRunStages.lean ====
/-
  The reference program's run, read stretch by stretch, second half, and the run itself. From the first layer's
  output (after 63 operations) to the result (after all 98): h·W2, the gathered and scaled messages, their
  scatter-add, the bias, and the log-softmax. Every weakly fair execution of @main then terminates with the result
  buffer at the last stage of the launch arguments and the arguments unchanged.
-/
import proofs.«123378_j41532333752332_1_alg».proof.Proof.RefRunA
import proofs.«123378_j41532333752332_1_alg».proof.Proof.RefRead
import proofs.«123378_j41532333752332_1_alg».proof.Proof.LibHostChunks
import Idealize.ShloMosaic.Lib.StableHlo.Run

set_option maxRecDepth 16384

noncomputable section

namespace Cert.ReferenceIdeal.RunStages

open Cert.ReferenceIdeal Cert.ReferenceIdeal.Gen Cert.ReferenceIdeal.ValueP Cert.ReferenceIdeal.ReadP Cert.HostChunks
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Typed references

A called function's operations name their buffers by typed references, and move contents between the value's type
and the buffer's own type, which is the same type by computation. -/

/-- Contents moved to a typed reference's buffer and back are the contents. -/
private theorem ofBuf_toBuf {sig : RefSig} {Val : EltTy → Type} {T : BufTy} (x : TRef sig T) (v : T.Contents Val) :
    x.ofBuf (x.toBuf v) = v := by
  obtain ⟨r, e, _, _⟩ := x
  subst e
  rfl

/-- Read at the value's type, the buffer's contents are themselves. -/
private theorem ofBuf_eq {sig : RefSig} {Val : EltTy → Type} {T : BufTy} (x : TRef sig T) (w : x.ref.ty.Contents Val)
    (v : T.Contents Val) (h : HEq w v) : x.ofBuf w = v := by
  obtain ⟨r, e, _, _⟩ := x
  subst e
  exact eq_of_heq h

/-- Written at the buffer's type, the value's contents are themselves. -/
private theorem toBuf_eq {sig : RefSig} {Val : EltTy → Type} {T : BufTy} (x : TRef sig T) (v : T.Contents Val)
    (w : x.ref.ty.Contents Val) (h : HEq v w) : x.toBuf v = w := by
  obtain ⟨r, e, _, _⟩ := x
  subst e
  exact eq_of_heq h

/-! ## After 65 operations: the first layer's output times the second weights, and the edge norm as a column -/

/-- h·W2. -/
theorem B65_v48 : B m c 65 (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show B m c (63 + 2) _ = _
  rw [B_step]
  generalize hV : B m c 63 = V
  simp only [ops, List.drop_succ_cons, List.drop_zero, List.take_succ_cons, List.take_zero]
  after_results
  subst hV
  rw [B63_v47 m c, B63_arg4 m c]
  rfl

/-- The edge norm as a column. -/
theorem B65_v49 : B m c 65 (Proc.devRef .tc main_v49) = val_main_v49 (F := Ideal) (m ((c.tc : Thread nD τ).loc main_arg1)) := by
  show B m c (63 + 2) _ = _
  rw [B_step]
  generalize hV : B m c 63 = V
  simp only [ops, List.drop_succ_cons, List.drop_zero, List.take_succ_cons, List.take_zero]
  after_results
  subst hV
  rw [B63_v29 m c]
  rfl

theorem B65_v3 : B m c 65 (Proc.devRef .tc main_v3) = val_main_v3 (F := Ideal) (m ((c.tc : Thread nD τ).loc main_arg1)) :=
  (show B m c (63 + 2) (Proc.devRef .tc main_v3) = B m c 63 (Proc.devRef .tc main_v3) by
    rw [B_step]; keeps_buffer ops).trans (B63_v3 m c)

theorem B65_v6 : B m c 65 (Proc.devRef .tc main_v6) = val_main_v6 (F := Ideal) (m ((c.tc : Thread nD τ).loc main_arg1)) :=
  (show B m c (63 + 2) (Proc.devRef .tc main_v6) = B m c 63 (Proc.devRef .tc main_v6) by
    rw [B_step]; keeps_buffer ops).trans (B63_v6 m c)

theorem B65_arg5 : B m c 65 (Proc.devRef .tc main_arg5) = (m ((c.tc : Thread nD τ).loc main_arg5)) :=
  (show B m c (63 + 2) (Proc.devRef .tc main_arg5) = B m c 63 (Proc.devRef .tc main_arg5) by
    rw [B_step]; keeps_buffer ops).trans (B63_arg5 m c)

/-! ## After 74 operations: the rows of h·W2 gathered at the sources -/

/-- The gathered rows. -/
theorem B74_v56 : B m c 74 (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show B m c (65 + 9) _ = _
  rw [B_step]
  generalize hV : B m c 65 = V
  simp only [ops, List.drop_succ_cons, List.drop_zero, List.take_succ_cons, List.take_zero]
  after_results
  subst hV
  rw [B65_v48 m c, B65_v3 m c]
  rfl

theorem B74_v49 : B m c 74 (Proc.devRef .tc main_v49) = val_main_v49 (F := Ideal) (m ((c.tc : Thread nD τ).loc main_arg1)) :=
  (show B m c (65 + 9) (Proc.devRef .tc main_v49) = B m c 65 (Proc.devRef .tc main_v49) by
    rw [B_step]; keeps_buffer ops).trans (B65_v49 m c)

theorem B74_v6 : B m c 74 (Proc.devRef .tc main_v6) = val_main_v6 (F := Ideal) (m ((c.tc : Thread nD τ).loc main_arg1)) :=
  (show B m c (65 + 9) (Proc.devRef .tc main_v6) = B m c 65 (Proc.devRef .tc main_v6) by
    rw [B_step]; keeps_buffer ops).trans (B65_v6 m c)

theorem B74_arg5 : B m c 74 (Proc.devRef .tc main_arg5) = (m ((c.tc : Thread nD τ).loc main_arg5)) :=
  (show B m c (65 + 9) (Proc.devRef .tc main_arg5) = B m c 65 (Proc.devRef .tc main_arg5) by
    rw [B_step]; keeps_buffer ops).trans (B65_arg5 m c)

/-! ## After 83 operations: the scaled messages scattered onto the targets, plus the bias -/

/-- The second layer's output before the log-softmax. -/
theorem B83_v64 : B m c 83 (Proc.devRef .tc main_v64) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show B m c (74 + 9) _ = _
  rw [B_step]
  generalize hV : B m c 74 = V
  simp only [ops, List.drop_succ_cons, List.drop_zero, List.take_succ_cons, List.take_zero]
  after_results
  subst hV
  rw [B74_v49 m c, B74_v56 m c, B74_v6 m c, B74_arg5 m c]
  rfl

/-! ## After 91 operations: each row minus its maximum -/

/-- The shifted rows. -/
theorem B91_call2_v5 : B m c 91 (Proc.devRef .tc main_call2_v5) = val_main_call2_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show B m c (83 + 8) _ = _
  rw [B_step]
  generalize hV : B m c 83 = V
  simp only [ops, List.drop_succ_cons, List.drop_zero, List.take_succ_cons, List.take_zero]
  after_results
  repeat rw [ofBuf_toBuf]
  subst hV
  rw [B83_v64 m c, ofBuf_eq (TRef.of (T := ⟨S50000x128, .f32⟩) main_v64) _ (val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) HEq.rfl]
  refine toBuf_eq _ _ _ (heq_of_eq ?_)
  rfl

/-! ## After all 98 operations: the shifted rows minus the logarithm of their exponentials' sum -/

/-- The result after all 98 operations is the last stage of the launch arguments. -/
theorem B98_v65 : B m c 98 (Proc.devRef .tc main_v65)
    = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show B m c (91 + 7) _ = _
  rw [B_step]
  generalize hV : B m c 91 = V
  simp only [ops, List.drop_succ_cons, List.drop_zero, List.take_succ_cons, List.take_zero]
  after_results
  repeat rw [ofBuf_toBuf]
  subst hV
  rw [B91_call2_v5 m c, ofBuf_eq (TRef.of (T := ⟨S50000x128, .f32⟩) main_call2_v5) _ (val_main_call2_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) HEq.rfl]
  refine toBuf_eq _ _ _ (heq_of_eq ?_)
  rfl

/-- Every weakly fair execution of the reference's @main terminates with the result at its last stage of the launch
    arguments, the arguments unchanged. -/
theorem run : θ_run defs (onTc (τ := τ) (main (F := Ideal))) ⟨m, fun _ => 0, ρ⟩ fun r => ∀ c : Dev nD,
      r.2.mem ((c.tc : Thread nD τ).loc main_v65)
        = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v65).trans
        ((congrFun (after_take_of_length_le (ops (F := Ideal)) (launchContents m c) 98 (by decide)) _).trans (B98_v65 m c)),
       (h c main_arg0).trans
        ((show StableHlo.after (ops (F := Ideal)) (launchContents m c) (Proc.devRef .tc main_arg0) = launchContents m c (Proc.devRef .tc main_arg0) by
          keeps_buffer ops).trans rfl),
       (h c main_arg1).trans
        ((show StableHlo.after (ops (F := Ideal)) (launchContents m c) (Proc.devRef .tc main_arg1) = launchContents m c (Proc.devRef .tc main_arg1) by
          keeps_buffer ops).trans rfl),
       (h c main_arg2).trans
        ((show StableHlo.after (ops (F := Ideal)) (launchContents m c) (Proc.devRef .tc main_arg2) = launchContents m c (Proc.devRef .tc main_arg2) by
          keeps_buffer ops).trans rfl),
       (h c main_arg3).trans
        ((show StableHlo.after (ops (F := Ideal)) (launchContents m c) (Proc.devRef .tc main_arg3) = launchContents m c (Proc.devRef .tc main_arg3) by
          keeps_buffer ops).trans rfl),
       (h c main_arg4).trans
        ((show StableHlo.after (ops (F := Ideal)) (launchContents m c) (Proc.devRef .tc main_arg4) = launchContents m c (Proc.devRef .tc main_arg4) by
          keeps_buffer ops).trans rfl),
       (h c main_arg5).trans
        ((show StableHlo.after (ops (F := Ideal)) (launchContents m c) (Proc.devRef .tc main_arg5) = launchContents m c (Proc.devRef .tc main_arg5) by
          keeps_buffer ops).trans rfl)⟩)
    (run_seq scopedRefs_eq scopedSems_eq defs main (fun _ => ops) main_eq (fun _ => ops_sub) m ρ)

end Cert.ReferenceIdeal.RunStages

end
-- ==== Proof.lean ====
/-
  Two programs compute a two-layer graph convolution with symmetric normalisation on a graph of 50000 nodes and
  1600000 edges plus self loops: out = log_softmax (Â · relu (Â · (x W1) + b1) · W2 + b2), where Â scales the message
  along edge e by norm(e) = d(row e)^(-1/2) · d(col e)^(-1/2) and sums the messages at their target nodes. Both build
  the edge lists, the degrees and the norm with the same host operations, and both gather rows and scatter-add them
  with the same host operations. They differ in where the dense stages run. The kernel program runs them in six
  launches over row blocks: x W1 as the outer product of the column x and the row W1; the edge scaling as rows times
  a norm column; the bias and rectifier; h W2 block by block into a zero accumulator; the edge scaling again; the
  bias and the row-wise log-softmax. The reference spells the same stages as a product with one contracted
  coordinate, broadcasts and whole-array operations. On the extended reals each stage of one program is the same
  function of its operands as the stage of the other: a sum of one term is that term, the product commutes, a
  product cut into row blocks is the product, and a maximum taken once more against −∞ is unchanged; no law used
  needs the inputs finite. The kernel's idealization rewrote no operation, so it is the kernel's own text.
  The three frames: the two kernel programs' are the generated frame certificates; the reference's is its run with
  the result dropped. The value claim: the kernel program's run leaves the result buffer at the last boundary's
  contents, which the fold through the program names as the reference's last stage of the same arguments; the
  reference's run ends at that stage.
-/
import proofs.«123378_j41532333752332_1_alg».proof.Defs
import proofs.«123378_j41532333752332_1_alg».proof.Proof.Gen.Kernel
import proofs.«123378_j41532333752332_1_alg».proof.Proof.Gen.Kernel.Frame
import proofs.«123378_j41532333752332_1_alg».proof.Proof.Gen.KernelIdeal
import proofs.«123378_j41532333752332_1_alg».proof.Proof.Gen.KernelIdeal.Frame
import proofs.«123378_j41532333752332_1_alg».proof.Proof.Gen.ReferenceIdeal
import proofs.«123378_j41532333752332_1_alg».proof.Proof.Gen.Pre_finite_inputs
import proofs.«123378_j41532333752332_1_alg».proof.Proof.KernelRun
import proofs.«123378_j41532333752332_1_alg».proof.Proof.FoldB
import proofs.«123378_j41532333752332_1_alg».proof.Proof.RefRunStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunStages.run m ρ)

/-- The ideal pass rewrote no operation. -/
theorem preserves : Cert.preserves_Kernel_KernelIdeal := trivial

/-- Both runs end with the result at the reference's last stage of the arguments, which agree. -/
theorem algebraic : Cert.algebraic_KernelIdeal_ReferenceIdeal := by
  intro m ρ m' ρ' _ hagree
  refine ⟨fun c => Cert.KernelIdeal.Gen.W13 (F := Ideal) m ρ c (Proc.devRef .tc Cert.KernelIdeal.main_v58),
    Cert.KernelIdeal.Gen.run_out (F := Ideal) m ρ, ?_⟩
  refine (θ_run Cert.ReferenceIdeal.defs _ _).mono (fun _ h c => ⟨(h c).1.trans ?_, (h c).2⟩)
    (Cert.ReferenceIdeal.RunStages.run m' ρ')
  rw [(hagree c).1, (hagree c).2.1, (hagree c).2.2.1, (hagree c).2.2.2.1, (hagree c).2.2.2.2.1, (hagree c).2.2.2.2.2]
  exact (Cert.KernelIdeal.Fold.W13_out m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
